-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S4096x128 .f32) (main_arg1 : FVec F S4096x128 .f32) (main_arg2 : FVec F S4096x4096 .f32) (main_arg3 : FVec F S4096x4096 .f32) (main_arg4 : FVec F S128x128 .f32) (main_arg5 : FVec F S128 .f32) (main_arg6 : FVec F S128x128 .f32) (main_arg7 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S1x128 : Shape := ⟨2, ![1, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 12
  | .vmem => 20
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x4096, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S4096x128, .f32⟩
  | .hbm, ⟨11, _⟩ => ⟨S4096x128, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x128, .f32⟩
  | .local _ .vmem, ⟨5, _⟩ => ⟨S4096x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S4096x128, .bf16⟩
  | .local _ .vmem, ⟨19, _⟩ => ⟨S4096x128, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S256x4096_S256x4096_0_0 : ∀ a, (![0, 0] : Fin 2 → Nat) a + S256x4096.size a ≤ S256x4096.size a
  h_S256x4096 : 0 < S256x4096.numel
  natLt_1_32 : 1 < 32
  reduces_S256x4096_S256 : S256x4096.Reduces [1] S256
  shapeCasts_S256_S256x1 : S256.ShapeCasts S256x1
  inb_S128x128_S128x128_0_0 : ∀ a, (![0, 0] : Fin 2 → Nat) a + S128x128.size a ≤ S128x128.size a
  h_S128x128 : 0 < S128x128.numel
  inb_S256x128_S256x128_0_0 : ∀ a, (![0, 0] : Fin 2 → Nat) a + S256x128.size a ≤ S256x128.size a
  h_S256x128 : 0 < S256x128.numel
  broadcasts_S256x1_S256x128 : S256x1.Broadcasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  dot_S256x4096_S4096x128_S256x128_1_0_0_1_n_n_wf : DotDims.WF S256x4096 S4096x128 S256x128 [1] [0] [0] [1] [] []
  dot_S256x128_S128x128_S256x128_1_1_0_0_n_n_wf : DotDims.WF S256x128 S128x128 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .f32 = 32 ∨ (Rect.block (s := S4096x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S4096x128.size a
  hwx0_4 : ∀ i : grid0.Coords, EltTy.bits .f32 = 32 ∨ (Rect.block (s := S4096x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S4096x128.size a
  hwx0_5 : ∀ i : grid0.Coords, EltTy.bits .f32 = 32 ∨ (Rect.block (s := S4096x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S4096x128.size a
  hwx0_10 : ∀ i : grid0.Coords, EltTy.bits .f32 = 32 ∨ (Rect.block (s := S4096x128) S256x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S4096x128.size a
  hwx0_11 : ∀ i : grid0.Coords, EltTy.bits .f32 = 32 ∨ (Rect.block (s := S4096x128) S256x128.size (cc0_transform_11 i) (hinb0_11 i)).WholeWords (EltTy.packing .f32)

variable [Facts₀]

def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x128_S256x128_1_1_0_0_n_n : DotDims S256x128 S128x128 S256x128 where
  lhsContracting := [1]
  rhsContracting := [1]
  lhsNonContracting := [0]
  rhsNonContracting := [0]
  lhsBatch := []
  rhsBatch := []
  wf := dot_S256x128_S128x128_S256x128_1_1_0_0_n_n_wf

abbrev win0_0 : Pipeline.Window sig grid0 :=
  Pipeline.Window.ofSpec (Memref.whole main_arg2) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S256x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S256x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2_0) S256x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_1) S256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 66
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x4096, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S4096x4096, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .i1⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x128, .f32⟩
  | .hbm, ⟨23, _⟩ => ⟨S4096x128, .f32⟩
  | .hbm, ⟨24, _⟩ => ⟨S_, .f32⟩
  | .hbm, ⟨25, _⟩ => ⟨S4096x128, .f32⟩
  | .hbm, ⟨26, _⟩ => ⟨S4096x128, .i1⟩
  | .hbm, ⟨27, _⟩ => ⟨S4096x128, .f32⟩
  | .hbm, ⟨28, _⟩ => ⟨S_, .f32⟩
  | .hbm, ⟨29, _⟩ => ⟨S4096x128, .f32⟩
  | .hbm, ⟨30, _⟩ => ⟨S4096x128, .f32⟩
  | .hbm, ⟨31, _⟩ => ⟨S128x128, .f32⟩
  | .hbm, ⟨32, _⟩ => ⟨S4096x128, .f32⟩
  | .hbm, ⟨33, _⟩ => ⟨S4096x128, .f32⟩
  | .hbm, ⟨34, _⟩ => ⟨S1x128, .f32⟩
  | .hbm, ⟨35, _⟩ => ⟨S4096x128, .f32⟩
  | .hbm, ⟨36, _⟩ => ⟨S4096x128, .f32⟩
  | .hbm, ⟨37, _⟩ => ⟨S_, .f32⟩
  | .hbm, ⟨38, _⟩ => ⟨S4096x4096, .f32⟩
  | .hbm, ⟨39, _⟩ => ⟨S4096x4096, .i1⟩
  | .hbm, ⟨40, _⟩ => ⟨S4096x4096, .f32⟩
  | .hbm, ⟨41, _⟩ => ⟨S4096x128, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .i1⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x128, .f32⟩
  | .hbm, ⟨52, _⟩ => ⟨S4096x128, .f32⟩
  | .hbm, ⟨53, _⟩ => ⟨S_, .f32⟩
  | .hbm, ⟨54, _⟩ => ⟨S4096x128, .f32⟩
  | .hbm, ⟨55, _⟩ => ⟨S4096x128, .i1⟩
  | .hbm, ⟨56, _⟩ => ⟨S4096x128, .f32⟩
  | .hbm, ⟨57, _⟩ => ⟨S_, .f32⟩
  | .hbm, ⟨58, _⟩ => ⟨S4096x128, .f32⟩
  | .hbm, ⟨59, _⟩ => ⟨S4096x128, .f32⟩
  | .hbm, ⟨60, _⟩ => ⟨S128x128, .f32⟩
  | .hbm, ⟨61, _⟩ => ⟨S4096x128, .f32⟩
  | .hbm, ⟨62, _⟩ => ⟨S4096x128, .f32⟩
  | .hbm, ⟨63, _⟩ => ⟨S1x128, .f32⟩
  | .hbm, ⟨64, _⟩ => ⟨S4096x128, .f32⟩
  | .hbm, ⟨65, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_call0_v0 : Ref sig .tc := ⟨.hbm, 26, rfl⟩
abbrev main_v13 : Ref sig .tc := ⟨.hbm, 27, rfl⟩
abbrev main_call1_cst : Ref sig .tc := ⟨.hbm, 28, rfl⟩
abbrev main_call1_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_call2_v0 : Ref sig .tc := ⟨.hbm, 55, rfl⟩
abbrev main_v34 : Ref sig .tc := ⟨.hbm, 56, rfl⟩
abbrev main_call3_cst : Ref sig .tc := ⟨.hbm, 57, rfl⟩
abbrev main_call3_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bcast_S_S4096x128 : S_.BroadcastsInDim S4096x128 (![] : Fin 0 → Fin S4096x128.rank)
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []

variable [Facts₀]

def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.KRun.lean ====
/-
  The kernel body as a Hoare triple on ANY whole staging memrefs, in its two control cases.

  At the FIRST grid point the body copies both feature arrays, narrowed to bf16, into its two scratch buffers
  (`k0_pay2`, `k0_pay3`) and then computes both output tiles from them; at every LATER point it skips the copies
  and computes the tiles from what the scratch buffers hold. Each output tile is the skeleton's payload
  (`k0_pay4` for the object direction, `k0_pay1` for the region direction) of the tile's matrix block, the
  OTHER direction's bf16 source copy, the weight matrix, the target rows and the bias row. The input buffers are
  only read and are handed back as they were.
-/
import proofs.«172328_g7610682049159_cont_9to1_m_1368_17_alg».proof.Proof.Gen.Kernel.Skeleton
import proofs.«172328_g7610682049159_cont_9to1_m_1368_17_alg».proof.Proof.Gen.Kernel.Launch
import proofs.«172328_g7610682049159_cont_9to1_m_1368_17_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch condition, from the grid coordinate: it holds at the first point only. -/
abbrev isFirst (i : grid0.Coords) : Prop :=
  (Scalar.cmpi .ne (Scalar.extui (Scalar.cmpi .eq (BitVec.ofNat 32 (i 0).val) 0#32)) 0#32) = 1#1

/-- Decided over the sixteen grid points. -/
theorem isFirst_iff : ∀ t : Fin cfg0.N, isFirst (grid0.coords t) ↔ t.val = 0 :=
  (by decide +kernel : ∀ t : Fin grid0.N, isFirst (grid0.coords t) ↔ t.val = 0)

/-- The object-direction tile: matrix block `x0`, the region features' bf16 copy `s1`, weights `x6`, target rows
    `x4`, bias row `x8`. -/
abbrev tileO (x0 : Vec F S256x4096 .f32) (s1 : Vec F S4096x128 .bf16) (x6 : Vec F S128x128 .f32) (x4 : Vec F S256x128 .f32)
    (x8 : Vec F S1x128 .f32) : Vec F S256x128 .f32 := k0_pay4 x0 s1 x6 x4 x8

/-- The region-direction tile: matrix block `x1`, the object features' bf16 copy `s0`, weights `x7`, target rows
    `x5`, bias row `x9`. -/
abbrev tileR (x1 : Vec F S256x4096 .f32) (s0 : Vec F S4096x128 .bf16) (x7 : Vec F S128x128 .f32) (x5 : Vec F S256x128 .f32)
    (x9 : Vec F S1x128 .f32) : Vec F S256x128 .f32 := k0_pay1 x1 s0 x7 x5 x9

/-- Both offsets of a whole-buffer access are zero. -/
private theorem off_zero : (![0, 0] : Fin 2 → Nat) = fun _ => 0 := funext fun a => by fin_cases a <;> rfl

/-- A load of a whole buffer through the full rectangle at zero offsets reads the buffer's contents. -/
private theorem load_whole {S : Shape} {e : EltTy} {m : Memref sig .tc .vmem S e} (h : m.IsWhole) {off : Fin S.rank → Nat}
    (hz : off = fun _ => 0) (inb : ∀ a, off a + S.size a ≤ S.size a) (X : Vec F S e) :
    View.readAt (Elt F) m.view (Rect.unit off S.size inb).toLoadRect (h.unread X) = X := by
  rw [View.readAt_eq_ld, h.read_unread, View.ld_unit_zero hz]

/-- One store through the full rectangle at zero offsets, over any contents, reads back as its payload. -/
private theorem store_whole {S : Shape} {e : EltTy} (m : Memref sig .tc .vmem S e) (f : m.view.ty.Contents (Elt F))
    {off : Fin S.rank → Nat} (hz : off = fun _ => 0) (inb : ∀ a, off a + S.size a ≤ S.size a) (w : Vec F S e) :
    m.view.read (Elt F) (m.view.writes (Elt F) f [⟨Rect.unit off S.size inb, w⟩]) = w := by
  rw [View.read_writes_eq_canon _ _ _ (fun y => ⟨_, List.mem_singleton_self _, View.mem_set_unit_zero hz inb y⟩),
    View.canon_unit_zero hz]

set_option maxHeartbeats 1000000 in
/-- THE FIRST POINT. The inputs' buffers at `x0 … x9`, both outputs' and both scratch buffers at anything: the body
    runs, leaves the bf16 copies of `x2` and `x3` in the scratch buffers and both tiles computed from those copies. -/
theorem run_first (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S4096x128 .bf16) (harg13 : arg13.IsWhole) (arg14 : Memref sig .tc .vmem S4096x128 .bf16) (harg14 : arg14.IsWhole)
    (hc : isFirst i) (x0 x1 : Vec F S256x4096 .f32) (x2 x3 : Vec F S4096x128 .f32) (x4 x5 : Vec F S256x128 .f32) (x6 x7 : Vec F S128x128 .f32) (x8 x9 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (tileO x0 (k0_pay3 x3) x6 x4 x8)
            ∗ owns (c : Thread nD τ) arg12 fullShare (tileR x1 (k0_pay2 x2) x7 x5 x9)
            ∗ owns (c : Thread nD τ) arg13 fullShare (k0_pay2 x2)
            ∗ owns (c : Thread nD τ) arg14 fullShare (k0_pay3 x3)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap
    · iexact H11
    · ipureintro
      refine (store_whole arg11 f11 off_zero _ _).trans ?_
      sl_unfold_run_names
      rw [View.readCov_unit_zero _ off_zero, load_whole harg1 off_zero, load_whole harg4 off_zero, load_whole harg7 off_zero, load_whole harg5 off_zero, load_whole harg9 off_zero]
  isplitl [H12]
  · iexists _; isplitr
    swap
    · iexact H12
    · ipureintro
      refine (store_whole arg12 f12 off_zero _ _).trans ?_
      sl_unfold_run_names
      rw [View.readCov_unit_zero _ off_zero, load_whole harg2 off_zero, load_whole harg3 off_zero, load_whole harg8 off_zero, load_whole harg6 off_zero, load_whole harg10 off_zero]
  isplitl [H13]
  · iexists _; isplitr
    swap
    · iexact H13
    · ipureintro
      sl_unfold_run_names
      refine (store_whole arg13 f13 off_zero _ _).trans ?_
      rw [load_whole harg3 off_zero]
  iexists _; isplitr
  swap
  · iexact H14
  · ipureintro
    sl_unfold_run_names
    refine (store_whole arg14 f14 off_zero _ _).trans ?_
    rw [load_whole harg4 off_zero]

set_option maxHeartbeats 1000000 in
/-- A LATER POINT. The scratch buffers hold `s0` and `s1`: the body runs, leaves them as they were and both tiles
    computed from them. -/
theorem run_later (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S4096x128 .bf16) (harg13 : arg13.IsWhole) (arg14 : Memref sig .tc .vmem S4096x128 .bf16) (harg14 : arg14.IsWhole)
    (hc : ¬ isFirst i) (x0 x1 : Vec F S256x4096 .f32) (x2 x3 : Vec F S4096x128 .f32) (x4 x5 : Vec F S256x128 .f32) (x6 x7 : Vec F S128x128 .f32) (x8 x9 : Vec F S1x128 .f32)
    (s0 s1 : Vec F S4096x128 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ owns (c : Thread nD τ) arg13 fullShare s0 ∗ owns (c : Thread nD τ) arg14 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (tileO x0 s1 x6 x4 x8)
            ∗ owns (c : Thread nD τ) arg12 fullShare (tileR x1 s0 x7 x5 x9)
            ∗ owns (c : Thread nD τ) arg13 fullShare s0
            ∗ owns (c : Thread nD τ) arg14 fullShare s1) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg14.eq_unread hf14
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap
    · iexact H11
    · ipureintro
      refine (store_whole arg11 f11 off_zero _ _).trans ?_
      rw [load_whole harg1 off_zero, load_whole harg14 off_zero, load_whole harg7 off_zero, load_whole harg5 off_zero, load_whole harg9 off_zero]
  isplitl [H12]
  · iexists _; isplitr
    swap
    · iexact H12
    · ipureintro
      refine (store_whole arg12 f12 off_zero _ _).trans ?_
      rw [load_whole harg2 off_zero, load_whole harg13 off_zero, load_whole harg8 off_zero, load_whole harg6 off_zero, load_whole harg10 off_zero]
  isplitl [H13]
  · iexists _; isplitr; · ipureintro; exact harg13.read_unread _
    iexact H13
  iexists _; isplitr; · ipureintro; exact harg14.read_unread _
  iexact H14

end Cert.Kernel.Hand

end
-- ==== Proof.KData.lean ====
/-
  The pipeline's proof data for the fused kernel.

  The region is entered after two host reshapes (the bias vectors as rows); `V` is what the TensorCore's buffers
  hold there. A window's block at a grid point, `iblk`, is read off `V`. The two feature arrays are each
  staged by TWO input windows (whole, and by blocks of 256 rows); each such array's full share is dealt to its two
  windows by halves. After the first point the scratch buffers hold the bf16 copies `srcO`, `srcR` of the whole
  feature arrays for the rest of the run; every output tile is the kernel's tile function of the point's blocks and
  the OTHER direction's copy.
-/
import proofs.«172328_g7610682049159_cont_9to1_m_1368_17_alg».proof.Proof.KRun
import Idealize.ShloMosaic.Lib.Pipeline.Frame
import Idealize.ShloMosaic.Lib.Pipeline.FrameBody
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffer contents when the region is entered: after the two host reshapes. -/
abbrev V (c : Dev nD) (b : Ref sig .tc) : Buf (Elt F) ((c.tc : Thread nD τ).loc b) :=
  StableHlo.after (hostOps0 (F := F)) (fun b => m (c, b)) b

/-- The reshapes allocate nothing. -/
theorem hostOps0_fresh : (hostOps0 : List (HloOp τ sig (Elt F))).Forall fun op => op.fresh = ∅ := by
  simp only [List.Forall]; repeat' constructor

/-- @main is the two reshapes, then the region. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh (fun c => main_chain c)

/-- The reshapes write the two bias rows only: every argument array is at its launch contents. -/
theorem V_arg (c : Dev nD) (b : Ref sig .tc) (h0 : b ≠ main_v0) (h1 : b ≠ main_v1) : V m c b = m ((c.tc : Thread nD τ).loc b) := by
  show StableHlo.after (hostOps0 (F := F)) (fun b => m (c, b)) (Proc.devRef .tc b) = _
  rw [StableHlo.after_cons, StableHlo.after_cons, StableHlo.after_nil,
    StableHlo.reshape_result_ne _ _ _ _ _ _ _ h1, StableHlo.reshape_result_ne _ _ _ _ _ _ _ h0]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The bf16 copy of the whole object-feature array (window 2's one block), kept in the first scratch buffer. -/
def srcO (c : Dev nD) : Vec F S4096x128 .bf16 := k0_pay2 (iblk m c 2 t0_0)
/-- The bf16 copy of the whole region-feature array (window 3's one block), kept in the second scratch buffer. -/
def srcR (c : Dev nD) : Vec F S4096x128 .bf16 := k0_pay3 (iblk m c 3 t0_0)

/-- The two scratch operands as memrefs. -/
abbrev scM0 : Memref sig .tc .vmem S4096x128 .bf16 := Memref.whole cc0_scratch0
abbrev scM1 : Memref sig .tc .vmem S4096x128 .bf16 := Memref.whole cc0_scratch1

/-- The region invariant before position `n`: before the first point the class's (every scratch at anything);
    afterwards the two scratch buffers at the bf16 copies, and the generator register at some state. -/
def PhiS (c : Dev nD) : ℕ → sProp 𝕄
  | 0 => Pipeline.ΦA spec0 c
  | _ + 1 => iprop(owns (c : Thread nD τ) scM0 fullShare (srcO m c) ∗ owns (c : Thread nD τ) scM1 fullShare (srcR m c) ∗ (∃ r, prngReg c r))

theorem PhiS_zero (c : Dev nD) : PhiS m c 0 = Pipeline.ΦA spec0 c := rfl
theorem PhiS_pos (c : Dev nD) (n : ℕ) (h : n ≠ 0) :
    PhiS m c n = iprop(owns (c : Thread nD τ) scM0 fullShare (srcO m c) ∗ owns (c : Thread nD τ) scM1 fullShare (srcR m c) ∗ (∃ r, prngReg c r)) := by
  cases n with
  | zero => exact absurd rfl h
  | succ n => rfl

/-- The class invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => tileO (iblk m c 0 t) (srcR m c) (iblk m c 6 t) (iblk m c 4 t) (iblk m c 8 t)
    | ⟨11, _⟩ => tileR (iblk m c 1 t) (srcO m c) (iblk m c 7 t) (iblk m c 5 t) (iblk m c 9 t)
  Φ t := PhiS m c t.val
  q w := match w with
    | ⟨2, _⟩ => fullShare.left
    | ⟨3, _⟩ => fullShare.left
    | ⟨4, _⟩ => fullShare.right
    | ⟨5, _⟩ => fullShare.right
    | _ => fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) :
    (dats m 0 c).after 10 t = tileO (iblk m c 0 t) (srcR m c) (iblk m c 6 t) (iblk m c 4 t) (iblk m c 8 t) := by dsimp only [dats]
theorem after0_11 (c : Dev nD) (t : Fin cfg0.N) :
    (dats m 0 c).after 11 t = tileR (iblk m c 1 t) (srcO m c) (iblk m c 7 t) (iblk m c 5 t) (iblk m c 9 t) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)

/-- The whole-array windows' one block is the same at every point. -/
-- The index map of such a window is the constant (0, 0): the block's rectangle of the array, hence its view, is the
-- same term at every point once the map is unfolded.
theorem iblk2_const (c : Dev nD) (t : Fin cfg0.N) : iblk m c 2 t = iblk m c 2 t0_0 := rfl
theorem iblk3_const (c : Dev nD) (t : Fin cfg0.N) : iblk m c 3 t = iblk m c 3 t0_0 := rfl

end Cert.Kernel.Hand

end
-- ==== Proof.KBody.lean ====
/-
  The body obligation: at every grid point the kernel body, handed each input window's block, the outputs'
  buffers at anything and the invariant, returns the inputs as they were, the two output tiles, and the invariant
  of the next point. The first point is the body's copying case (the scratch buffers are filled with the bf16
  copies of the whole feature arrays, which window 2 and window 3 stage); every later point finds those copies
  in the scratch buffers and leaves them.
-/
import proofs.«172328_g7610682049159_cont_9to1_m_1368_17_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window is idle at any point: the configuration states no idle point. -/
theorem live0 (w : Fin cfg0.W) (i : cfg0.grid.Coords) : cfg0.idle w i = false := rfl

/-- So every window's buffer is left at what the proof data says the body leaves. -/
theorem leaves0 (c : Dev nD) (w : Fin cfg0.W) (t : Fin cfg0.N) :
    (dats m 0 c).leavesExact w t
      = owns (c : Thread nD τ) ((cfg0.win w).stage (cfg0.slots t w)) fullShare ((dats m 0 c).after w t) := by
  unfold Dat.leavesExact; rw [live0]

/-- What the body is called with at point `t`: the invariant, what the core owes, and every window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns: the next point's invariant, what the core owes, and every buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- The body at any point. The inputs' buffers hold their blocks. At the first point the invariant hands over both
    scratch buffers at anything, the body fills them with the bf16 copies of windows 2 and 3 (whose one block is the
    same at every point, so these are the copies the invariant names from then on) and computes both tiles from them.
    At a later point the invariant hands over the scratch buffers at the copies and takes them back unchanged. The core
    owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  simp only [leaves0]
  rw [after0_0, after0_1, after0_2, after0_3, after0_4, after0_5, after0_6, after0_7, after0_8, after0_9, after0_10, after0_11]
  rw [Phi_eq, Phi_eq, Fin.coe_castSucc, Fin.val_succ]
  by_cases hz : t.val = 0
  · have hΦ : PhiS m c t.val = Pipeline.ΦA spec0 c := by rw [hz]; exact PhiS_zero m c
    have e2 : srcO m c = k0_pay2 (iblk m c 2 t) := by unfold srcO; rw [← iblk2_const m c t]
    have e3 : srcR m c = k0_pay3 (iblk m c 3 t) := by unfold srcR; rw [← iblk3_const m c t]
    rw [hΦ, PhiS_pos m c (t.val + 1) (Nat.succ_ne_zero _), PhiA_eq, e2, e3]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first c (grid0.coords t) _ _ _ _ _ _ _ _ _ _ _ _ _ _ _ _ _ _ _ _ _ _ _ _ _ _ _ _ ((isFirst_iff t).mpr hz) (iblk m c 0 t) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [PhiS_pos m c t.val hz, PhiS_pos m c (t.val + 1) (Nat.succ_ne_zero _)]
    iintro ⟨⟨HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_later c (grid0.coords t) _ _ _ _ _ _ _ _ _ _ _ _ _ _ _ _ _ _ _ _ _ _ _ _ _ _ _ _ (fun h => hz ((isFirst_iff t).mp h)) (iblk m c 0 t) (iblk m c 1 t) (iblk m c 2 t) (iblk m c 3 t) (iblk m c 4 t) (iblk m c 5 t) (iblk m c 6 t) (iblk m c 7 t) (iblk m c 8 t) (iblk m c 9 t) (srcO m c) (srcR m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation for the proof data `dats`, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KSplit.lean ====
/-
  How the buffers behind the windows' arrays are dealt to the windows at the region's entry. Ten buffers stand
  behind the twelve windows: the object-feature array is staged by windows 2 and 4, the region-feature array by
  windows 3 and 5; each of those two buffers' full share splits into its left half (the whole-array window's) and
  its right half (the row-block window's); every other buffer goes whole to its one window.
-/
import proofs.«172328_g7610682049159_cont_9to1_m_1368_17_alg».proof.Proof.KData
import Idealize.ShloMosaic.Lib.Pipeline.Launch
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One buffer of core `c`, whole, held at share `q` at the contents the region finds. -/
private abbrev atB (c : Dev nD) (b : Ref sig .tc) (q : PosShare TreeShare) : sProp 𝕄 :=
  ((c.tc : Thread nD τ).loc b) ↦{q} V m c b

/-- The proof data's arrays at entry, window by window: every window's array is a whole buffer, so its element set
    is everything, and before any write-back its contents are the entry contents of the buffer behind it. -/
private theorem arrays_byWindow (c : Dev nD) :
    ((dats m 0 c).arrays ((dats m 0 c).arrAt · 0) : sProp 𝕄)
      = bigSep Finset.univ fun w : Fin 12 => atB m c (Pipeline.arrRef spec0 w) ((dats m 0 c).share w) := by
  unfold Dat.arrays
  exact bigSep_congr fun w _ => by rw [(arr_whole0 w).set_eq_univ]; rfl

/-- The ten distinct buffers behind the twelve windows, listed in the order of their first window. -/
private theorem arrBufs_chain (c : Dev nD) :
    (Pipeline.arrBufs (cfgs 0).spec c (V m c) : sProp 𝕄)
      = iprop(atB m c main_arg2 fullShare ∗ atB m c main_arg3 fullShare ∗ atB m c main_arg0 fullShare ∗ atB m c main_arg1 fullShare
          ∗ atB m c main_arg4 fullShare ∗ atB m c main_arg6 fullShare ∗ atB m c main_v0 fullShare ∗ atB m c main_v1 fullShare
          ∗ atB m c main_v2_0 fullShare ∗ atB m c main_v2_1 fullShare) := by
  unfold Pipeline.arrBufs
  rw [bigSep_eq_bigSepL_of_eq [main_arg2, main_arg3, main_arg0, main_arg1, main_arg4, main_arg6, main_v0, main_v1, main_v2_0, main_v2_1]
    (by decide) (by decide)]
  rfl

/-- The twelve windows' arrays with each window's share: the two feature arrays appear twice, at the left half
    under the whole-array window and at the right half under the row-block window; an output is held whole. -/
private theorem arrays_chain (c : Dev nD) :
    ((dats m 0 c).arrays ((dats m 0 c).arrAt · 0) : sProp 𝕄)
      = iprop(atB m c main_arg2 fullShare ∗ atB m c main_arg3 fullShare ∗ atB m c main_arg0 fullShare.left ∗ atB m c main_arg1 fullShare.left
          ∗ atB m c main_arg0 fullShare.right ∗ atB m c main_arg1 fullShare.right ∗ atB m c main_arg4 fullShare ∗ atB m c main_arg6 fullShare
          ∗ atB m c main_v0 fullShare ∗ atB m c main_v1 fullShare ∗ atB m c main_v2_0 fullShare ∗ atB m c main_v2_1 fullShare) := by
  rw [arrays_byWindow, bigSep_W0]; rfl

/-- The arrays' buffers, each whole at the full share at the entry contents, make the proof data's arrays at entry. -/
theorem hsplit (c : Dev nD) :
    (Pipeline.arrBufs (cfgs 0).spec c (V m c) : sProp 𝕄) ⊢ (dats m 0 c).arrays ((dats m 0 c).arrAt · 0) := by
  rw [arrays_chain, arrBufs_chain]
  iintro ⟨H2, H3, H0, H1, H4, H6, Hv0, Hv1, Ho0, Ho1⟩
  -- the full share of each feature array is its left half and its right half
  icases (pointsTo_share (PosShare.mem_left_op_right fullShare)).1 $$ H0 with ⟨H0l, H0r⟩
  icases (pointsTo_share (PosShare.mem_left_op_right fullShare)).1 $$ H1 with ⟨H1l, H1r⟩
  isplitl [H2]; · iexact H2
  isplitl [H3]; · iexact H3
  isplitl [H0l]; · iexact H0l
  isplitl [H1l]; · iexact H1l
  isplitl [H0r]; · iexact H0r
  isplitl [H1r]; · iexact H1r
  isplitl [H4]; · iexact H4
  isplitl [H6]; · iexact H6
  isplitl [Hv0]; · iexact Hv0
  isplitl [Hv1]; · iexact Hv1
  isplitl [Ho0]; · iexact Ho0
  iexact Ho1

end Cert.Kernel.Hand

end
-- ==== Proof.LibSharedFrame.lean ====
/-
  The frame run of a one-region pipeline whose INPUT windows may share arrays.

  The library's frame run (`Pipeline.θ_run_frame_track`) asks that no two windows stage the same array. A kernel
  that is handed one array through two input windows (a whole-array window beside a row-block window on it, say)
  is outside it; the launch theorems that admit shared arrays (`WinFacts₀`) leave to their caller how each shared
  array's full share is dealt among the windows on it (`hsplit`). This file states the frame run once over the
  general one of them, `Pipeline.θ_run_region_pf` at no own semaphore and no prefetched table (the shorter form
  `Pipeline.θ_run_region_noSem_shared` lets the generator register go, and the class invariant `ΦA` holds that
  register, so the frame run cannot go through it): everything the library's frame run supplies around the launch (the launch
  element of the ghost state, the generator register and the scoped rest routed into the class invariant `ΦA`
  and back, the bypassing unscoped buffers read back at the end) is the same; only the arrays' dealing is the
  caller's. The conclusion is the library's `Pipeline.FramePost`.
-/
import Idealize.ShloMosaic.Lib.Pipeline.Frame

noncomputable section

namespace Idealize.ShloMosaic.Pipeline.SharedFrame

open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic Idealize.ShloMosaic.Pipeline
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE FRAME RUN with a tracking invariant for a pipeline whose windows may share arrays (`WinFacts₀`): as
    `Pipeline.θ_run_frame_track`, with the layout facts given one by one and the entry dealing of the arrays
    (`hsplit`) supplied by the caller in place of the arrays' distinctness. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  -- The launch for exact proof data at the general form (own semaphores: none; prefetched tables: none; nothing
  -- extra funded in the ghost state), which is the one form that hands the generator register to its caller.
  exact θ_run_region_pf (fun q => (cfgs q).toPCfg (Val := Val)) (fun q => (cfgs q).toPCfg_adm) dats () hinj p hw
    (OwnSemFacts.none (cfgs p).spec) (PreFacts.none _) emb₁ defs₀ 𝒱₀ m g main hbody hne harr hstage howed
    (G := fun _ => iprop(emp)) (u₀ := Rounds.initOf (cells cfgs hinj) (launchToks cfgs hinj))
    (hu₀ := by
      iintro Hu; imodintro
      isplitl [Hu]
      · iapply (show (ownU _ : sProp 𝕄) ⊢ BI.own (emb₁ (Rounds.initOf (cells cfgs hinj) (launchToks cfgs hinj))) from .rfl)
        iexact Hu
      iapply (show (BI.emp : sProp 𝕄) ⊢ bigSep Finset.univ (fun _ : Dev nD => (BI.emp : sProp 𝕄)) from by
        rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]
      · iexists _; iexact Hp
      iexact HU)
    (hin := fun c => (show _ ⊢ ΦA (cfgs p).spec c by
      unfold ΦA
      iintro ⟨Hp, -, Hr⟩
      isplitl [Hr] <;> iassumption).trans (hin c))
    (hout := fun c => (hout c).trans (by
      rw [ownSems0_none]; unfold ΦA
      iintro ⟨Hr, Hp⟩
      isplitl [Hp]
      · iexact Hp
      isplitr
      · iempintro
      iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

end Idealize.ShloMosaic.Pipeline.SharedFrame

end
-- ==== Proof.KFrame.lean ====
/-
  The run of the fused kernel's program: every weakly fair execution terminates without a fault; each output
  array ends at what the write-backs of the sixteen points leave in it (the library's `Dat.arrAt`), and every
  argument array ends as it began — an argument a window stages because an input array is never written, the two
  bias vectors because they bypass the region.
-/
import proofs.«172328_g7610682049159_cont_9to1_m_1368_17_alg».proof.Proof.KBody
import proofs.«172328_g7610682049159_cont_9to1_m_1368_17_alg».proof.Proof.KSplit
import proofs.«172328_g7610682049159_cont_9to1_m_1368_17_alg».proof.Proof.LibSharedFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [Phi_eq]; exact Idealize.SL.BI.Entails.refl _

/-- After the last point the invariant gives the class invariant back: the scratch buffers' contents are forgotten. -/
theorem hout (c : Dev nD) : (dats m 0 c).Φ (Fin.last cfg0.N) ⊢ Pipeline.ΦA spec0 c := by
  rw [Phi_eq, PhiS_pos m c _ (by rw [Fin.val_last]; have : cfg0.N = 16 := N_0; omega), PhiA_eq]
  iintro ⟨HS0, HS1, Hg⟩
  isplitl [HS0 HS1]
  · isplitl [HS0]
    · iexists _; iexact HS0
    · iexists _; iexact HS1
  iexact Hg

set_option backward.isDefEq.respectTransparency.types false in
/-- The frame run: every array of the pipeline at `Dat.arrAt … N`, every bypassing buffer as the region found it. -/
theorem run_main : θ_run defs (onTc (τ := τ) (main (F := F))) (s₀ m ρ) (Pipeline.FramePost cfgs (dats m) 0 (V m)) :=
  Pipeline.SharedFrame.θ_run_frame_track_shared cfgs (dats m) (0 : Fin 1) cellOf_inj winFacts₀0 block_pos0 arr_whole0 stage_whole0
    defs₀ Variants.none m ρ main (fun c => (body_obligation m c).loose) (fun _ _ => rfl) (V m) (hmain m) (hsplit m) (hin m) (hout m)

/-- Every argument array ends as it began. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧     r.2.mem ((c.tc : Thread nD τ).loc main_arg1) = m ((c.tc : Thread nD τ).loc main_arg1)
      ∧     r.2.mem ((c.tc : Thread nD τ).loc main_arg2) = m ((c.tc : Thread nD τ).loc main_arg2)
      ∧     r.2.mem ((c.tc : Thread nD τ).loc main_arg3) = m ((c.tc : Thread nD τ).loc main_arg3)
      ∧     r.2.mem ((c.tc : Thread nD τ).loc main_arg4) = m ((c.tc : Thread nD τ).loc main_arg4)
      ∧     r.2.mem ((c.tc : Thread nD τ).loc main_arg5) = m ((c.tc : Thread nD τ).loc main_arg5)
      ∧     r.2.mem ((c.tc : Thread nD τ).loc main_arg6) = m ((c.tc : Thread nD τ).loc main_arg6)
      ∧     r.2.mem ((c.tc : Thread nD τ).loc main_arg7) = m ((c.tc : Thread nD τ).loc main_arg7) := by
  -- an input window's array is never written, and it is no bias row, so the reshapes left it too
  have hw : ∀ W : Fin 12, (cfg0.win W).isOut = false → Pipeline.arrRef spec0 W ≠ main_v0 → Pipeline.arrRef spec0 W ≠ main_v1 →
      r.2.mem (((cfgs 0).spec W).arr.view.loc (c.tc : Thread nD τ)) = m ((c.tc : Thread nD τ).loc (Pipeline.arrRef spec0 W)) :=
    fun W hin h0 h1 => ((h c).1 W).trans (((dats m 0 c).arrAt_in W hin _).trans ((A_eq m c W).trans (V_arg m c _ h0 h1)))
  -- an unscoped buffer that is no window's array bypasses the region
  have hr : ∀ b : Ref sig .tc, b.isScoped = false → (∀ w, (spec0 w).arr.view.ref ≠ b) → b ≠ main_v0 → b ≠ main_v1 →
      r.2.mem ((c.tc : Thread nD τ).loc b) = m ((c.tc : Thread nD τ).loc b) :=
    fun b hs ha h0 h1 => ((h c).2 b (Pipeline.mem_restRefs_of b hs ha)).trans (V_arg m c b h0 h1)
  exact ⟨hw 2 rfl (by decide) (by decide), hw 3 rfl (by decide) (by decide), hw 0 rfl (by decide) (by decide),
    hw 1 rfl (by decide) (by decide), hw 6 rfl (by decide) (by decide), hr main_arg5 rfl (by decide) (by decide) (by decide),
    hw 7 rfl (by decide) (by decide), hr main_arg7 rfl (by decide) (by decide) (by decide)⟩

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => kept_args m r h c) (run_main m ρ)

/-- The run with both output arrays named: each at the contents the sixteen write-backs leave. -/
theorem run_outputs : θ_run defs (onTc (τ := τ) (main (F := F))) ⟨m, fun _ => 0, ρ⟩ (fun r => ∀ c : Dev nD,
      r.2.mem ((c.tc : Thread nD τ).loc main_v2_0) = (dats m 0 c).arrAt 10 cfg0.N
      ∧ r.2.mem ((c.tc : Thread nD τ).loc main_v2_1) = (dats m 0 c).arrAt 11 cfg0.N
      ∧ r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c).1 10, (h c).1 11, kept_args m r h c⟩) (run_main m ρ)

end Cert.Kernel.Hand

end
-- ==== Proof.KIRun.lean ====
/-
  The kernel body as a Hoare triple on ANY whole staging memrefs, in its two control cases.

  At the FIRST grid point the body copies both feature arrays, narrowed to bf16, into its two scratch buffers
  (`k0_pay2`, `k0_pay3`) and then computes both output tiles from them; at every LATER point it skips the copies
  and computes the tiles from what the scratch buffers hold. Each output tile is the skeleton's payload
  (`k0_pay4` for the object direction, `k0_pay1` for the region direction) of the tile's matrix block, the
  OTHER direction's bf16 source copy, the weight matrix, the target rows and the bias row. The input buffers are
  only read and are handed back as they were.
-/
import proofs.«172328_g7610682049159_cont_9to1_m_1368_17_alg».proof.Proof.Gen.KernelIdeal.Skeleton
import proofs.«172328_g7610682049159_cont_9to1_m_1368_17_alg».proof.Proof.Gen.KernelIdeal.Launch
import proofs.«172328_g7610682049159_cont_9to1_m_1368_17_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition, from the grid coordinate: it holds at the first point only. -/
abbrev isFirst (i : grid0.Coords) : Prop :=
  (Scalar.cmpi .ne (Scalar.extui (Scalar.cmpi .eq (BitVec.ofNat 32 (i 0).val) 0#32)) 0#32) = 1#1

/-- Decided over the sixteen grid points. -/
theorem isFirst_iff : ∀ t : Fin cfg0.N, isFirst (grid0.coords t) ↔ t.val = 0 :=
  (by decide +kernel : ∀ t : Fin grid0.N, isFirst (grid0.coords t) ↔ t.val = 0)

/-- The object-direction tile: matrix block `x0`, the region features' bf16 copy `s1`, weights `x6`, target rows
    `x4`, bias row `x8`. -/
abbrev tileO (x0 : Vec F S256x4096 .f32) (s1 : Vec F S4096x128 .bf16) (x6 : Vec F S128x128 .f32) (x4 : Vec F S256x128 .f32)
    (x8 : Vec F S1x128 .f32) : Vec F S256x128 .f32 := k0_pay4 x0 s1 x6 x4 x8

/-- The region-direction tile: matrix block `x1`, the object features' bf16 copy `s0`, weights `x7`, target rows
    `x5`, bias row `x9`. -/
abbrev tileR (x1 : Vec F S256x4096 .f32) (s0 : Vec F S4096x128 .bf16) (x7 : Vec F S128x128 .f32) (x5 : Vec F S256x128 .f32)
    (x9 : Vec F S1x128 .f32) : Vec F S256x128 .f32 := k0_pay1 x1 s0 x7 x5 x9

/-- Both offsets of a whole-buffer access are zero. -/
private theorem off_zero : (![0, 0] : Fin 2 → Nat) = fun _ => 0 := funext fun a => by fin_cases a <;> rfl

/-- A load of a whole buffer through the full rectangle at zero offsets reads the buffer's contents. -/
private theorem load_whole {S : Shape} {e : EltTy} {m : Memref sig .tc .vmem S e} (h : m.IsWhole) {off : Fin S.rank → Nat}
    (hz : off = fun _ => 0) (inb : ∀ a, off a + S.size a ≤ S.size a) (X : Vec F S e) :
    View.readAt (Elt F) m.view (Rect.unit off S.size inb).toLoadRect (h.unread X) = X := by
  rw [View.readAt_eq_ld, h.read_unread, View.ld_unit_zero hz]

/-- One store through the full rectangle at zero offsets, over any contents, reads back as its payload. -/
private theorem store_whole {S : Shape} {e : EltTy} (m : Memref sig .tc .vmem S e) (f : m.view.ty.Contents (Elt F))
    {off : Fin S.rank → Nat} (hz : off = fun _ => 0) (inb : ∀ a, off a + S.size a ≤ S.size a) (w : Vec F S e) :
    m.view.read (Elt F) (m.view.writes (Elt F) f [⟨Rect.unit off S.size inb, w⟩]) = w := by
  rw [View.read_writes_eq_canon _ _ _ (fun y => ⟨_, List.mem_singleton_self _, View.mem_set_unit_zero hz inb y⟩),
    View.canon_unit_zero hz]

set_option maxHeartbeats 1000000 in
/-- THE FIRST POINT. The inputs' buffers at `x0 … x9`, both outputs' and both scratch buffers at anything: the body
    runs, leaves the bf16 copies of `x2` and `x3` in the scratch buffers and both tiles computed from those copies. -/
theorem run_first (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S4096x128 .bf16) (harg13 : arg13.IsWhole) (arg14 : Memref sig .tc .vmem S4096x128 .bf16) (harg14 : arg14.IsWhole)
    (hc : isFirst i) (x0 x1 : Vec F S256x4096 .f32) (x2 x3 : Vec F S4096x128 .f32) (x4 x5 : Vec F S256x128 .f32) (x6 x7 : Vec F S128x128 .f32) (x8 x9 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (tileO x0 (k0_pay3 x3) x6 x4 x8)
            ∗ owns (c : Thread nD τ) arg12 fullShare (tileR x1 (k0_pay2 x2) x7 x5 x9)
            ∗ owns (c : Thread nD τ) arg13 fullShare (k0_pay2 x2)
            ∗ owns (c : Thread nD τ) arg14 fullShare (k0_pay3 x3)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap
    · iexact H11
    · ipureintro
      refine (store_whole arg11 f11 off_zero _ _).trans ?_
      sl_unfold_run_names
      rw [View.readCov_unit_zero _ off_zero, load_whole harg1 off_zero, load_whole harg4 off_zero, load_whole harg7 off_zero, load_whole harg5 off_zero, load_whole harg9 off_zero]
  isplitl [H12]
  · iexists _; isplitr
    swap
    · iexact H12
    · ipureintro
      refine (store_whole arg12 f12 off_zero _ _).trans ?_
      sl_unfold_run_names
      rw [View.readCov_unit_zero _ off_zero, load_whole harg2 off_zero, load_whole harg3 off_zero, load_whole harg8 off_zero, load_whole harg6 off_zero, load_whole harg10 off_zero]
  isplitl [H13]
  · iexists _; isplitr
    swap
    · iexact H13
    · ipureintro
      sl_unfold_run_names
      refine (store_whole arg13 f13 off_zero _ _).trans ?_
      rw [load_whole harg3 off_zero]
  iexists _; isplitr
  swap
  · iexact H14
  · ipureintro
    sl_unfold_run_names
    refine (store_whole arg14 f14 off_zero _ _).trans ?_
    rw [load_whole harg4 off_zero]

set_option maxHeartbeats 1000000 in
/-- A LATER POINT. The scratch buffers hold `s0` and `s1`: the body runs, leaves them as they were and both tiles
    computed from them. -/
theorem run_later (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S4096x128 .bf16) (harg13 : arg13.IsWhole) (arg14 : Memref sig .tc .vmem S4096x128 .bf16) (harg14 : arg14.IsWhole)
    (hc : ¬ isFirst i) (x0 x1 : Vec F S256x4096 .f32) (x2 x3 : Vec F S4096x128 .f32) (x4 x5 : Vec F S256x128 .f32) (x6 x7 : Vec F S128x128 .f32) (x8 x9 : Vec F S1x128 .f32)
    (s0 s1 : Vec F S4096x128 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ owns (c : Thread nD τ) arg13 fullShare s0 ∗ owns (c : Thread nD τ) arg14 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (tileO x0 s1 x6 x4 x8)
            ∗ owns (c : Thread nD τ) arg12 fullShare (tileR x1 s0 x7 x5 x9)
            ∗ owns (c : Thread nD τ) arg13 fullShare s0
            ∗ owns (c : Thread nD τ) arg14 fullShare s1) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg14.eq_unread hf14
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap
    · iexact H11
    · ipureintro
      refine (store_whole arg11 f11 off_zero _ _).trans ?_
      rw [load_whole harg1 off_zero, load_whole harg14 off_zero, load_whole harg7 off_zero, load_whole harg5 off_zero, load_whole harg9 off_zero]
  isplitl [H12]
  · iexists _; isplitr
    swap
    · iexact H12
    · ipureintro
      refine (store_whole arg12 f12 off_zero _ _).trans ?_
      rw [load_whole harg2 off_zero, load_whole harg13 off_zero, load_whole harg8 off_zero, load_whole harg6 off_zero, load_whole harg10 off_zero]
  isplitl [H13]
  · iexists _; isplitr; · ipureintro; exact harg13.read_unread _
    iexact H13
  iexists _; isplitr; · ipureintro; exact harg14.read_unread _
  iexact H14

end Cert.KernelIdeal.Hand

end
-- ==== Proof.KIData.lean ====
/-
  The pipeline's proof data for the fused kernel.

  The region is entered after two host reshapes (the bias vectors as rows); `V` is what the TensorCore's buffers
  hold there. A window's block at a grid point, `iblk`, is read off `V`. The two feature arrays are each
  staged by TWO input windows (whole, and by blocks of 256 rows); each such array's full share is dealt to its two
  windows by halves. After the first point the scratch buffers hold the bf16 copies `srcO`, `srcR` of the whole
  feature arrays for the rest of the run; every output tile is the kernel's tile function of the point's blocks and
  the OTHER direction's copy.
-/
import proofs.«172328_g7610682049159_cont_9to1_m_1368_17_alg».proof.Proof.KIRun
import Idealize.ShloMosaic.Lib.Pipeline.Frame
import Idealize.ShloMosaic.Lib.Pipeline.FrameBody
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffer contents when the region is entered: after the two host reshapes. -/
abbrev V (c : Dev nD) (b : Ref sig .tc) : Buf (Elt F) ((c.tc : Thread nD τ).loc b) :=
  StableHlo.after (hostOps0 (F := F)) (fun b => m (c, b)) b

/-- The reshapes allocate nothing. -/
theorem hostOps0_fresh : (hostOps0 : List (HloOp τ sig (Elt F))).Forall fun op => op.fresh = ∅ := by
  simp only [List.Forall]; repeat' constructor

/-- @main is the two reshapes, then the region. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh (fun c => main_chain c)

/-- The reshapes write the two bias rows only: every argument array is at its launch contents. -/
theorem V_arg (c : Dev nD) (b : Ref sig .tc) (h0 : b ≠ main_v0) (h1 : b ≠ main_v1) : V m c b = m ((c.tc : Thread nD τ).loc b) := by
  show StableHlo.after (hostOps0 (F := F)) (fun b => m (c, b)) (Proc.devRef .tc b) = _
  rw [StableHlo.after_cons, StableHlo.after_cons, StableHlo.after_nil,
    StableHlo.reshape_result_ne _ _ _ _ _ _ _ h1, StableHlo.reshape_result_ne _ _ _ _ _ _ _ h0]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The bf16 copy of the whole object-feature array (window 2's one block), kept in the first scratch buffer. -/
def srcO (c : Dev nD) : Vec F S4096x128 .bf16 := k0_pay2 (iblk m c 2 t0_0)
/-- The bf16 copy of the whole region-feature array (window 3's one block), kept in the second scratch buffer. -/
def srcR (c : Dev nD) : Vec F S4096x128 .bf16 := k0_pay3 (iblk m c 3 t0_0)

/-- The two scratch operands as memrefs. -/
abbrev scM0 : Memref sig .tc .vmem S4096x128 .bf16 := Memref.whole cc0_scratch0
abbrev scM1 : Memref sig .tc .vmem S4096x128 .bf16 := Memref.whole cc0_scratch1

/-- The region invariant before position `n`: before the first point the class's (every scratch at anything);
    afterwards the two scratch buffers at the bf16 copies, and the generator register at some state. -/
def PhiS (c : Dev nD) : ℕ → sProp 𝕄
  | 0 => Pipeline.ΦA spec0 c
  | _ + 1 => iprop(owns (c : Thread nD τ) scM0 fullShare (srcO m c) ∗ owns (c : Thread nD τ) scM1 fullShare (srcR m c) ∗ (∃ r, prngReg c r))

theorem PhiS_zero (c : Dev nD) : PhiS m c 0 = Pipeline.ΦA spec0 c := rfl
theorem PhiS_pos (c : Dev nD) (n : ℕ) (h : n ≠ 0) :
    PhiS m c n = iprop(owns (c : Thread nD τ) scM0 fullShare (srcO m c) ∗ owns (c : Thread nD τ) scM1 fullShare (srcR m c) ∗ (∃ r, prngReg c r)) := by
  cases n with
  | zero => exact absurd rfl h
  | succ n => rfl

/-- The class invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => tileO (iblk m c 0 t) (srcR m c) (iblk m c 6 t) (iblk m c 4 t) (iblk m c 8 t)
    | ⟨11, _⟩ => tileR (iblk m c 1 t) (srcO m c) (iblk m c 7 t) (iblk m c 5 t) (iblk m c 9 t)
  Φ t := PhiS m c t.val
  q w := match w with
    | ⟨2, _⟩ => fullShare.left
    | ⟨3, _⟩ => fullShare.left
    | ⟨4, _⟩ => fullShare.right
    | ⟨5, _⟩ => fullShare.right
    | _ => fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) :
    (dats m 0 c).after 10 t = tileO (iblk m c 0 t) (srcR m c) (iblk m c 6 t) (iblk m c 4 t) (iblk m c 8 t) := by dsimp only [dats]
theorem after0_11 (c : Dev nD) (t : Fin cfg0.N) :
    (dats m 0 c).after 11 t = tileR (iblk m c 1 t) (srcO m c) (iblk m c 7 t) (iblk m c 5 t) (iblk m c 9 t) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)

/-- The whole-array windows' one block is the same at every point. -/
-- The index map of such a window is the constant (0, 0): the block's rectangle of the array, hence its view, is the
-- same term at every point once the map is unfolded.
theorem iblk2_const (c : Dev nD) (t : Fin cfg0.N) : iblk m c 2 t = iblk m c 2 t0_0 := rfl
theorem iblk3_const (c : Dev nD) (t : Fin cfg0.N) : iblk m c 3 t = iblk m c 3 t0_0 := rfl

end Cert.KernelIdeal.Hand

end
-- ==== Proof.KIBody.lean ====
/-
  The body obligation: at every grid point the kernel body, handed each input window's block, the outputs'
  buffers at anything and the invariant, returns the inputs as they were, the two output tiles, and the invariant
  of the next point. The first point is the body's copying case (the scratch buffers are filled with the bf16
  copies of the whole feature arrays, which window 2 and window 3 stage); every later point finds those copies
  in the scratch buffers and leaves them.
-/
import proofs.«172328_g7610682049159_cont_9to1_m_1368_17_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window is idle at any point: the configuration states no idle point. -/
theorem live0 (w : Fin cfg0.W) (i : cfg0.grid.Coords) : cfg0.idle w i = false := rfl

/-- So every window's buffer is left at what the proof data says the body leaves. -/
theorem leaves0 (c : Dev nD) (w : Fin cfg0.W) (t : Fin cfg0.N) :
    (dats m 0 c).leavesExact w t
      = owns (c : Thread nD τ) ((cfg0.win w).stage (cfg0.slots t w)) fullShare ((dats m 0 c).after w t) := by
  unfold Dat.leavesExact; rw [live0]

/-- What the body is called with at point `t`: the invariant, what the core owes, and every window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns: the next point's invariant, what the core owes, and every buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- The body at any point. The inputs' buffers hold their blocks. At the first point the invariant hands over both
    scratch buffers at anything, the body fills them with the bf16 copies of windows 2 and 3 (whose one block is the
    same at every point, so these are the copies the invariant names from then on) and computes both tiles from them.
    At a later point the invariant hands over the scratch buffers at the copies and takes them back unchanged. The core
    owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  simp only [leaves0]
  rw [after0_0, after0_1, after0_2, after0_3, after0_4, after0_5, after0_6, after0_7, after0_8, after0_9, after0_10, after0_11]
  rw [Phi_eq, Phi_eq, Fin.coe_castSucc, Fin.val_succ]
  by_cases hz : t.val = 0
  · have hΦ : PhiS m c t.val = Pipeline.ΦA spec0 c := by rw [hz]; exact PhiS_zero m c
    have e2 : srcO m c = k0_pay2 (iblk m c 2 t) := by unfold srcO; rw [← iblk2_const m c t]
    have e3 : srcR m c = k0_pay3 (iblk m c 3 t) := by unfold srcR; rw [← iblk3_const m c t]
    rw [hΦ, PhiS_pos m c (t.val + 1) (Nat.succ_ne_zero _), PhiA_eq, e2, e3]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first c (grid0.coords t) _ _ _ _ _ _ _ _ _ _ _ _ _ _ _ _ _ _ _ _ _ _ _ _ _ _ _ _ ((isFirst_iff t).mpr hz) (iblk m c 0 t) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [PhiS_pos m c t.val hz, PhiS_pos m c (t.val + 1) (Nat.succ_ne_zero _)]
    iintro ⟨⟨HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_later c (grid0.coords t) _ _ _ _ _ _ _ _ _ _ _ _ _ _ _ _ _ _ _ _ _ _ _ _ _ _ _ _ (fun h => hz ((isFirst_iff t).mp h)) (iblk m c 0 t) (iblk m c 1 t) (iblk m c 2 t) (iblk m c 3 t) (iblk m c 4 t) (iblk m c 5 t) (iblk m c 6 t) (iblk m c 7 t) (iblk m c 8 t) (iblk m c 9 t) (srcO m c) (srcR m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation for the proof data `dats`, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KISplit.lean ====
/-
  How the buffers behind the windows' arrays are dealt to the windows at the region's entry. Ten buffers stand
  behind the twelve windows: the object-feature array is staged by windows 2 and 4, the region-feature array by
  windows 3 and 5; each of those two buffers' full share splits into its left half (the whole-array window's) and
  its right half (the row-block window's); every other buffer goes whole to its one window.
-/
import proofs.«172328_g7610682049159_cont_9to1_m_1368_17_alg».proof.Proof.KIData
import Idealize.ShloMosaic.Lib.Pipeline.Launch
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One buffer of core `c`, whole, held at share `q` at the contents the region finds. -/
private abbrev atB (c : Dev nD) (b : Ref sig .tc) (q : PosShare TreeShare) : sProp 𝕄 :=
  ((c.tc : Thread nD τ).loc b) ↦{q} V m c b

/-- The proof data's arrays at entry, window by window: every window's array is a whole buffer, so its element set
    is everything, and before any write-back its contents are the entry contents of the buffer behind it. -/
private theorem arrays_byWindow (c : Dev nD) :
    ((dats m 0 c).arrays ((dats m 0 c).arrAt · 0) : sProp 𝕄)
      = bigSep Finset.univ fun w : Fin 12 => atB m c (Pipeline.arrRef spec0 w) ((dats m 0 c).share w) := by
  unfold Dat.arrays
  exact bigSep_congr fun w _ => by rw [(arr_whole0 w).set_eq_univ]; rfl

/-- The ten distinct buffers behind the twelve windows, listed in the order of their first window. -/
private theorem arrBufs_chain (c : Dev nD) :
    (Pipeline.arrBufs (cfgs 0).spec c (V m c) : sProp 𝕄)
      = iprop(atB m c main_arg2 fullShare ∗ atB m c main_arg3 fullShare ∗ atB m c main_arg0 fullShare ∗ atB m c main_arg1 fullShare
          ∗ atB m c main_arg4 fullShare ∗ atB m c main_arg6 fullShare ∗ atB m c main_v0 fullShare ∗ atB m c main_v1 fullShare
          ∗ atB m c main_v2_0 fullShare ∗ atB m c main_v2_1 fullShare) := by
  unfold Pipeline.arrBufs
  rw [bigSep_eq_bigSepL_of_eq [main_arg2, main_arg3, main_arg0, main_arg1, main_arg4, main_arg6, main_v0, main_v1, main_v2_0, main_v2_1]
    (by decide) (by decide)]
  rfl

/-- The twelve windows' arrays with each window's share: the two feature arrays appear twice, at the left half
    under the whole-array window and at the right half under the row-block window; an output is held whole. -/
private theorem arrays_chain (c : Dev nD) :
    ((dats m 0 c).arrays ((dats m 0 c).arrAt · 0) : sProp 𝕄)
      = iprop(atB m c main_arg2 fullShare ∗ atB m c main_arg3 fullShare ∗ atB m c main_arg0 fullShare.left ∗ atB m c main_arg1 fullShare.left
          ∗ atB m c main_arg0 fullShare.right ∗ atB m c main_arg1 fullShare.right ∗ atB m c main_arg4 fullShare ∗ atB m c main_arg6 fullShare
          ∗ atB m c main_v0 fullShare ∗ atB m c main_v1 fullShare ∗ atB m c main_v2_0 fullShare ∗ atB m c main_v2_1 fullShare) := by
  rw [arrays_byWindow, bigSep_W0]; rfl

/-- The arrays' buffers, each whole at the full share at the entry contents, make the proof data's arrays at entry. -/
theorem hsplit (c : Dev nD) :
    (Pipeline.arrBufs (cfgs 0).spec c (V m c) : sProp 𝕄) ⊢ (dats m 0 c).arrays ((dats m 0 c).arrAt · 0) := by
  rw [arrays_chain, arrBufs_chain]
  iintro ⟨H2, H3, H0, H1, H4, H6, Hv0, Hv1, Ho0, Ho1⟩
  -- the full share of each feature array is its left half and its right half
  icases (pointsTo_share (PosShare.mem_left_op_right fullShare)).1 $$ H0 with ⟨H0l, H0r⟩
  icases (pointsTo_share (PosShare.mem_left_op_right fullShare)).1 $$ H1 with ⟨H1l, H1r⟩
  isplitl [H2]; · iexact H2
  isplitl [H3]; · iexact H3
  isplitl [H0l]; · iexact H0l
  isplitl [H1l]; · iexact H1l
  isplitl [H0r]; · iexact H0r
  isplitl [H1r]; · iexact H1r
  isplitl [H4]; · iexact H4
  isplitl [H6]; · iexact H6
  isplitl [Hv0]; · iexact Hv0
  isplitl [Hv1]; · iexact Hv1
  isplitl [Ho0]; · iexact Ho0
  iexact Ho1

end Cert.KernelIdeal.Hand

end
-- ==== Proof.KIFrame.lean ====
/-
  The run of the fused kernel's program: every weakly fair execution terminates without a fault; each output
  array ends at what the write-backs of the sixteen points leave in it (the library's `Dat.arrAt`), and every
  argument array ends as it began — an argument a window stages because an input array is never written, the two
  bias vectors because they bypass the region.
-/
import proofs.«172328_g7610682049159_cont_9to1_m_1368_17_alg».proof.Proof.KIBody
import proofs.«172328_g7610682049159_cont_9to1_m_1368_17_alg».proof.Proof.KISplit
import proofs.«172328_g7610682049159_cont_9to1_m_1368_17_alg».proof.Proof.LibSharedFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [Phi_eq]; exact Idealize.SL.BI.Entails.refl _

/-- After the last point the invariant gives the class invariant back: the scratch buffers' contents are forgotten. -/
theorem hout (c : Dev nD) : (dats m 0 c).Φ (Fin.last cfg0.N) ⊢ Pipeline.ΦA spec0 c := by
  rw [Phi_eq, PhiS_pos m c _ (by rw [Fin.val_last]; have : cfg0.N = 16 := N_0; omega), PhiA_eq]
  iintro ⟨HS0, HS1, Hg⟩
  isplitl [HS0 HS1]
  · isplitl [HS0]
    · iexists _; iexact HS0
    · iexists _; iexact HS1
  iexact Hg

set_option backward.isDefEq.respectTransparency.types false in
/-- The frame run: every array of the pipeline at `Dat.arrAt … N`, every bypassing buffer as the region found it. -/
theorem run_main : θ_run defs (onTc (τ := τ) (main (F := F))) (s₀ m ρ) (Pipeline.FramePost cfgs (dats m) 0 (V m)) :=
  Pipeline.SharedFrame.θ_run_frame_track_shared cfgs (dats m) (0 : Fin 1) cellOf_inj winFacts₀0 block_pos0 arr_whole0 stage_whole0
    defs₀ Variants.none m ρ main (fun c => (body_obligation m c).loose) (fun _ _ => rfl) (V m) (hmain m) (hsplit m) (hin m) (hout m)

/-- Every argument array ends as it began. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧     r.2.mem ((c.tc : Thread nD τ).loc main_arg1) = m ((c.tc : Thread nD τ).loc main_arg1)
      ∧     r.2.mem ((c.tc : Thread nD τ).loc main_arg2) = m ((c.tc : Thread nD τ).loc main_arg2)
      ∧     r.2.mem ((c.tc : Thread nD τ).loc main_arg3) = m ((c.tc : Thread nD τ).loc main_arg3)
      ∧     r.2.mem ((c.tc : Thread nD τ).loc main_arg4) = m ((c.tc : Thread nD τ).loc main_arg4)
      ∧     r.2.mem ((c.tc : Thread nD τ).loc main_arg5) = m ((c.tc : Thread nD τ).loc main_arg5)
      ∧     r.2.mem ((c.tc : Thread nD τ).loc main_arg6) = m ((c.tc : Thread nD τ).loc main_arg6)
      ∧     r.2.mem ((c.tc : Thread nD τ).loc main_arg7) = m ((c.tc : Thread nD τ).loc main_arg7) := by
  -- an input window's array is never written, and it is no bias row, so the reshapes left it too
  have hw : ∀ W : Fin 12, (cfg0.win W).isOut = false → Pipeline.arrRef spec0 W ≠ main_v0 → Pipeline.arrRef spec0 W ≠ main_v1 →
      r.2.mem (((cfgs 0).spec W).arr.view.loc (c.tc : Thread nD τ)) = m ((c.tc : Thread nD τ).loc (Pipeline.arrRef spec0 W)) :=
    fun W hin h0 h1 => ((h c).1 W).trans (((dats m 0 c).arrAt_in W hin _).trans ((A_eq m c W).trans (V_arg m c _ h0 h1)))
  -- an unscoped buffer that is no window's array bypasses the region
  have hr : ∀ b : Ref sig .tc, b.isScoped = false → (∀ w, (spec0 w).arr.view.ref ≠ b) → b ≠ main_v0 → b ≠ main_v1 →
      r.2.mem ((c.tc : Thread nD τ).loc b) = m ((c.tc : Thread nD τ).loc b) :=
    fun b hs ha h0 h1 => ((h c).2 b (Pipeline.mem_restRefs_of b hs ha)).trans (V_arg m c b h0 h1)
  exact ⟨hw 2 rfl (by decide) (by decide), hw 3 rfl (by decide) (by decide), hw 0 rfl (by decide) (by decide),
    hw 1 rfl (by decide) (by decide), hw 6 rfl (by decide) (by decide), hr main_arg5 rfl (by decide) (by decide) (by decide),
    hw 7 rfl (by decide) (by decide), hr main_arg7 rfl (by decide) (by decide) (by decide)⟩

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => kept_args m r h c) (run_main m ρ)

/-- The run with both output arrays named: each at the contents the sixteen write-backs leave. -/
theorem run_outputs : θ_run defs (onTc (τ := τ) (main (F := F))) ⟨m, fun _ => 0, ρ⟩ (fun r => ∀ c : Dev nD,
      r.2.mem ((c.tc : Thread nD τ).loc main_v2_0) = (dats m 0 c).arrAt 10 cfg0.N
      ∧ r.2.mem ((c.tc : Thread nD τ).loc main_v2_1) = (dats m 0 c).arrAt 11 cfg0.N
      ∧ r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c).1 10, (h c).1 11, kept_args m r h c⟩) (run_main m ρ)

end Cert.KernelIdeal.Hand

end
-- ==== Proof.KIBlocks.lean ====
/-
  From blocks to arrays. Point `t` writes back rows `256 t … 256 t + 255` of each output array, and the sixteen
  points' blocks tile it; so entry `(r, j)` of an output array after the run is entry `(r mod 256, j)` of the tile
  point `r / 256` computed — the kernel's tile function of that row slab of the matrix, the other direction's bf16
  copy of the whole source array, the weights, that row slab of the targets and the bias as a row.
-/
import proofs.«172328_g7610682049159_cont_9to1_m_1368_17_alg».proof.Proof.KIData
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The 256 rows from row `256 q` of an array of 4096 rows. -/
def rowsAt {C : ℕ} {α : Type} (a : (⟨2, ![4096, C]⟩ : Shape).Idx → α) (q : ℕ) (hq : q < 16) : (⟨2, ![256, C]⟩ : Shape).Idx → α :=
  fun y => a (ix2 (⟨q * 256 + (y 0).val, by have := idx2_lt0 y; omega⟩ : Fin 4096) (⟨(y 1).val, idx2_lt1 y⟩ : Fin C))

/-- A vector of 128 entries as a one-row matrix. -/
def asRow {α : Type} (b : (⟨1, ![128]⟩ : Shape).Idx → α) : (⟨2, ![1, 128]⟩ : Shape).Idx → α :=
  fun y => b (ix1 (⟨(y 1).val, idx2_lt1 y⟩ : Fin 128))

/-- The index maps, decided once over the grid: the blocked windows sit at block row `t`, column block 0; the whole-array
    windows at block (0, 0). -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The grid has sixteen points. -/
private theorem t_lt (t : Fin cfg0.N) : t.val < 16 := lt_of_lt_of_eq t.isLt N_0

/-- The first bias row as the region finds it: the host's reshape of the bias vector. -/
private theorem V_v0 (c : Dev nD) :
    (V m c main_v0 : S1x128.Idx → Elt F .f32)
      = shapeCast S1x128 (m ((c.tc : Thread nD τ).loc main_arg5) : S128.Idx → Elt F .f32) Facts₀.shapeCasts_S128_S1x128 := by
  dsimp only [V, hostOps0]; after_results; rfl

/-- The second bias row likewise. -/
private theorem V_v1 (c : Dev nD) :
    (V m c main_v1 : S1x128.Idx → Elt F .f32)
      = shapeCast S1x128 (m ((c.tc : Thread nD τ).loc main_arg7) : S128.Idx → Elt F .f32) Facts₀.shapeCasts_S128_S1x128 := by
  dsimp only [V, hostOps0]; after_results; rfl

/-! ## The input blocks, read off the argument arrays -/

/-- Window 0's block at point `t`: an entry of rows `256 t … 256 t + 255` of the first matrix. -/
private theorem iblk0_apply (c : Dev nD) (t : Fin cfg0.N) (x : S256x4096.Idx) (k : S4096x4096.Idx)
    (hk0 : (k 0).val = t.val * 256 + (x 0).val) (hk1 : (k 1).val = (x 1).val) :
    (iblk m c 0 t : Vec F S256x4096 .f32) x = (m ((c.tc : Thread nD τ).loc main_arg2) : S4096x4096.Idx → Elt F .f32) k := by
  obtain ⟨e0, e1, -⟩ := idx_facts t
  unfold iblk
  rw [View.read_apply]
  show V m c main_arg2 _ = _
  rw [V_arg m c main_arg2 (by decide) (by decide)]
  congr 1
  funext a
  apply Fin.ext
  match a with
  | ⟨0, _⟩ => show win0_0.index t (0 : Fin 2) * 256 + 1 * (x 0).val = (k 0).val; rw [e0, hk0]; omega
  | ⟨1, _⟩ => show win0_0.index t (1 : Fin 2) * 4096 + 1 * (x 1).val = (k 1).val; rw [e1, hk1]; omega

/-- Window 1's block at point `t`: an entry of rows `256 t … 256 t + 255` of the second matrix. -/
private theorem iblk1_apply (c : Dev nD) (t : Fin cfg0.N) (x : S256x4096.Idx) (k : S4096x4096.Idx)
    (hk0 : (k 0).val = t.val * 256 + (x 0).val) (hk1 : (k 1).val = (x 1).val) :
    (iblk m c 1 t : Vec F S256x4096 .f32) x = (m ((c.tc : Thread nD τ).loc main_arg3) : S4096x4096.Idx → Elt F .f32) k := by
  obtain ⟨-, -, e0, e1, -⟩ := idx_facts t
  unfold iblk
  rw [View.read_apply]
  show V m c main_arg3 _ = _
  rw [V_arg m c main_arg3 (by decide) (by decide)]
  congr 1
  funext a
  apply Fin.ext
  match a with
  | ⟨0, _⟩ => show win0_1.index t (0 : Fin 2) * 256 + 1 * (x 0).val = (k 0).val; rw [e0, hk0]; omega
  | ⟨1, _⟩ => show win0_1.index t (1 : Fin 2) * 4096 + 1 * (x 1).val = (k 1).val; rw [e1, hk1]; omega

/-- Window 2's one block is the whole first feature array. -/
private theorem iblk2_apply (c : Dev nD) (t : Fin cfg0.N) (x : S4096x128.Idx) :
    (iblk m c 2 t : Vec F S4096x128 .f32) x = (m ((c.tc : Thread nD τ).loc main_arg0) : S4096x128.Idx → Elt F .f32) x := by
  obtain ⟨-, -, -, -, e0, e1, -⟩ := idx_facts t
  unfold iblk
  rw [View.read_apply]
  show V m c main_arg0 _ = _
  rw [V_arg m c main_arg0 (by decide) (by decide)]
  congr 1
  funext a
  apply Fin.ext
  match a with
  | ⟨0, _⟩ => show win0_2.index t (0 : Fin 2) * 4096 + 1 * (x 0).val = (x 0).val; rw [e0]; omega
  | ⟨1, _⟩ => show win0_2.index t (1 : Fin 2) * 128 + 1 * (x 1).val = (x 1).val; rw [e1]; omega

/-- Window 3's one block is the whole second feature array. -/
private theorem iblk3_apply (c : Dev nD) (t : Fin cfg0.N) (x : S4096x128.Idx) :
    (iblk m c 3 t : Vec F S4096x128 .f32) x = (m ((c.tc : Thread nD τ).loc main_arg1) : S4096x128.Idx → Elt F .f32) x := by
  obtain ⟨-, -, -, -, -, -, e0, e1, -⟩ := idx_facts t
  unfold iblk
  rw [View.read_apply]
  show V m c main_arg1 _ = _
  rw [V_arg m c main_arg1 (by decide) (by decide)]
  congr 1
  funext a
  apply Fin.ext
  match a with
  | ⟨0, _⟩ => show win0_3.index t (0 : Fin 2) * 4096 + 1 * (x 0).val = (x 0).val; rw [e0]; omega
  | ⟨1, _⟩ => show win0_3.index t (1 : Fin 2) * 128 + 1 * (x 1).val = (x 1).val; rw [e1]; omega

/-- Window 4's block at point `t`: an entry of rows `256 t … 256 t + 255` of the first feature array. -/
private theorem iblk4_apply (c : Dev nD) (t : Fin cfg0.N) (x : S256x128.Idx) (k : S4096x128.Idx)
    (hk0 : (k 0).val = t.val * 256 + (x 0).val) (hk1 : (k 1).val = (x 1).val) :
    (iblk m c 4 t : Vec F S256x128 .f32) x = (m ((c.tc : Thread nD τ).loc main_arg0) : S4096x128.Idx → Elt F .f32) k := by
  obtain ⟨-, -, -, -, -, -, -, -, e0, e1, -⟩ := idx_facts t
  unfold iblk
  rw [View.read_apply]
  show V m c main_arg0 _ = _
  rw [V_arg m c main_arg0 (by decide) (by decide)]
  congr 1
  funext a
  apply Fin.ext
  match a with
  | ⟨0, _⟩ => show win0_4.index t (0 : Fin 2) * 256 + 1 * (x 0).val = (k 0).val; rw [e0, hk0]; omega
  | ⟨1, _⟩ => show win0_4.index t (1 : Fin 2) * 128 + 1 * (x 1).val = (k 1).val; rw [e1, hk1]; omega

/-- Window 5's block at point `t`: an entry of rows `256 t … 256 t + 255` of the second feature array. -/
private theorem iblk5_apply (c : Dev nD) (t : Fin cfg0.N) (x : S256x128.Idx) (k : S4096x128.Idx)
    (hk0 : (k 0).val = t.val * 256 + (x 0).val) (hk1 : (k 1).val = (x 1).val) :
    (iblk m c 5 t : Vec F S256x128 .f32) x = (m ((c.tc : Thread nD τ).loc main_arg1) : S4096x128.Idx → Elt F .f32) k := by
  obtain ⟨-, -, -, -, -, -, -, -, -, -, e0, e1, -⟩ := idx_facts t
  unfold iblk
  rw [View.read_apply]
  show V m c main_arg1 _ = _
  rw [V_arg m c main_arg1 (by decide) (by decide)]
  congr 1
  funext a
  apply Fin.ext
  match a with
  | ⟨0, _⟩ => show win0_5.index t (0 : Fin 2) * 256 + 1 * (x 0).val = (k 0).val; rw [e0, hk0]; omega
  | ⟨1, _⟩ => show win0_5.index t (1 : Fin 2) * 128 + 1 * (x 1).val = (k 1).val; rw [e1, hk1]; omega

/-- Window 6's one block is the whole first weight matrix. -/
private theorem iblk6_apply (c : Dev nD) (t : Fin cfg0.N) (x : S128x128.Idx) :
    (iblk m c 6 t : Vec F S128x128 .f32) x = (m ((c.tc : Thread nD τ).loc main_arg4) : S128x128.Idx → Elt F .f32) x := by
  obtain ⟨-, -, -, -, -, -, -, -, -, -, -, -, e0, e1, -⟩ := idx_facts t
  unfold iblk
  rw [View.read_apply]
  show V m c main_arg4 _ = _
  rw [V_arg m c main_arg4 (by decide) (by decide)]
  congr 1
  funext a
  apply Fin.ext
  match a with
  | ⟨0, _⟩ => show win0_6.index t (0 : Fin 2) * 128 + 1 * (x 0).val = (x 0).val; rw [e0]; omega
  | ⟨1, _⟩ => show win0_6.index t (1 : Fin 2) * 128 + 1 * (x 1).val = (x 1).val; rw [e1]; omega

/-- Window 7's one block is the whole second weight matrix. -/
private theorem iblk7_apply (c : Dev nD) (t : Fin cfg0.N) (x : S128x128.Idx) :
    (iblk m c 7 t : Vec F S128x128 .f32) x = (m ((c.tc : Thread nD τ).loc main_arg6) : S128x128.Idx → Elt F .f32) x := by
  obtain ⟨-, -, -, -, -, -, -, -, -, -, -, -, -, -, e0, e1, -⟩ := idx_facts t
  unfold iblk
  rw [View.read_apply]
  show V m c main_arg6 _ = _
  rw [V_arg m c main_arg6 (by decide) (by decide)]
  congr 1
  funext a
  apply Fin.ext
  match a with
  | ⟨0, _⟩ => show win0_7.index t (0 : Fin 2) * 128 + 1 * (x 0).val = (x 0).val; rw [e0]; omega
  | ⟨1, _⟩ => show win0_7.index t (1 : Fin 2) * 128 + 1 * (x 1).val = (x 1).val; rw [e1]; omega

/-- Window 8's one block is the first bias vector as a row. -/
private theorem iblk8_apply (c : Dev nD) (t : Fin cfg0.N) (y : S1x128.Idx) :
    (iblk m c 8 t : Vec F S1x128 .f32) y
      = (m ((c.tc : Thread nD τ).loc main_arg5) : S128.Idx → Elt F .f32) (ix1 (⟨(y 1).val, idx2_lt1 y⟩ : Fin 128)) := by
  obtain ⟨-, -, -, -, -, -, -, -, -, -, -, -, -, -, -, -, e0, e1, -⟩ := idx_facts t
  unfold iblk
  rw [View.read_apply]
  show V m c main_v0 _ = _
  rw [V_v0]
  refine shapeCast_apply (s := S128) (t := S1x128) _ _ _ _ ?_
  rw [Shape.rowMajor_val_two, Shape.rowMajor_val_one]
  show (y 1).val = (win0_8.index t (0 : Fin 2) * 1 + 1 * (y 0).val) * 128 + (win0_8.index t (1 : Fin 2) * 128 + 1 * (y 1).val)
  have h0 : (y 0).val < 1 := idx2_lt0 y
  rw [e0, e1]; omega

/-- Window 9's one block is the second bias vector as a row. -/
private theorem iblk9_apply (c : Dev nD) (t : Fin cfg0.N) (y : S1x128.Idx) :
    (iblk m c 9 t : Vec F S1x128 .f32) y
      = (m ((c.tc : Thread nD τ).loc main_arg7) : S128.Idx → Elt F .f32) (ix1 (⟨(y 1).val, idx2_lt1 y⟩ : Fin 128)) := by
  obtain ⟨-, -, -, -, -, -, -, -, -, -, -, -, -, -, -, -, -, -, e0, e1, -⟩ := idx_facts t
  unfold iblk
  rw [View.read_apply]
  show V m c main_v1 _ = _
  rw [V_v1]
  refine shapeCast_apply (s := S128) (t := S1x128) _ _ _ _ ?_
  rw [Shape.rowMajor_val_two, Shape.rowMajor_val_one]
  show (y 1).val = (win0_9.index t (0 : Fin 2) * 1 + 1 * (y 0).val) * 128 + (win0_9.index t (1 : Fin 2) * 128 + 1 * (y 1).val)
  have h0 : (y 0).val < 1 := idx2_lt0 y
  rw [e0, e1]; omega

/-! ## The blocks as functions: row slabs and whole arrays -/

private theorem iblk0_rows (c : Dev nD) (t : Fin cfg0.N) :
    (iblk m c 0 t : Vec F S256x4096 .f32) = rowsAt (m ((c.tc : Thread nD τ).loc main_arg2)) t.val (t_lt t) :=
  funext fun x => iblk0_apply m c t x _ rfl rfl

private theorem iblk1_rows (c : Dev nD) (t : Fin cfg0.N) :
    (iblk m c 1 t : Vec F S256x4096 .f32) = rowsAt (m ((c.tc : Thread nD τ).loc main_arg3)) t.val (t_lt t) :=
  funext fun x => iblk1_apply m c t x _ rfl rfl

private theorem iblk4_rows (c : Dev nD) (t : Fin cfg0.N) :
    (iblk m c 4 t : Vec F S256x128 .f32) = rowsAt (m ((c.tc : Thread nD τ).loc main_arg0)) t.val (t_lt t) :=
  funext fun x => iblk4_apply m c t x _ rfl rfl

private theorem iblk5_rows (c : Dev nD) (t : Fin cfg0.N) :
    (iblk m c 5 t : Vec F S256x128 .f32) = rowsAt (m ((c.tc : Thread nD τ).loc main_arg1)) t.val (t_lt t) :=
  funext fun x => iblk5_apply m c t x _ rfl rfl

private theorem iblk2_whole (c : Dev nD) (t : Fin cfg0.N) :
    (iblk m c 2 t : Vec F S4096x128 .f32) = m ((c.tc : Thread nD τ).loc main_arg0) := funext fun x => iblk2_apply m c t x

private theorem iblk3_whole (c : Dev nD) (t : Fin cfg0.N) :
    (iblk m c 3 t : Vec F S4096x128 .f32) = m ((c.tc : Thread nD τ).loc main_arg1) := funext fun x => iblk3_apply m c t x

private theorem iblk6_whole (c : Dev nD) (t : Fin cfg0.N) :
    (iblk m c 6 t : Vec F S128x128 .f32) = m ((c.tc : Thread nD τ).loc main_arg4) := funext fun x => iblk6_apply m c t x

private theorem iblk7_whole (c : Dev nD) (t : Fin cfg0.N) :
    (iblk m c 7 t : Vec F S128x128 .f32) = m ((c.tc : Thread nD τ).loc main_arg6) := funext fun x => iblk7_apply m c t x

private theorem iblk8_row (c : Dev nD) (t : Fin cfg0.N) :
    (iblk m c 8 t : Vec F S1x128 .f32) = asRow (m ((c.tc : Thread nD τ).loc main_arg5)) := funext fun y => iblk8_apply m c t y

private theorem iblk9_row (c : Dev nD) (t : Fin cfg0.N) :
    (iblk m c 9 t : Vec F S1x128 .f32) = asRow (m ((c.tc : Thread nD τ).loc main_arg7)) := funext fun y => iblk9_apply m c t y

/-- The bf16 copy of the second feature array, off the argument. -/
theorem srcR_eq (c : Dev nD) : srcR m c = k0_pay3 (m ((c.tc : Thread nD τ).loc main_arg1)) := by
  unfold srcR; rw [iblk3_whole]

/-- The bf16 copy of the first feature array, off the argument. -/
theorem srcO_eq (c : Dev nD) : srcO m c = k0_pay2 (m ((c.tc : Thread nD τ).loc main_arg0)) := by
  unfold srcO; rw [iblk2_whole]

/-! ## Each output array as one function of the argument arrays -/

/-- The object-direction output, entry by entry: the tile function on the row slab that holds the entry's row. -/
def wholeO (a2 : S4096x4096.Idx → Elt F .f32) (s : Vec F S4096x128 .bf16) (a4 : S128x128.Idx → Elt F .f32)
    (a0 : S4096x128.Idx → Elt F .f32) (b : S1x128.Idx → Elt F .f32) : S4096x128.Idx → Elt F .f32 :=
  fun i => tileO (rowsAt a2 ((i 0).val / 256) (by have := idx2_lt0 i; omega)) s a4
    (rowsAt a0 ((i 0).val / 256) (by have := idx2_lt0 i; omega)) b
    (ix2 (⟨(i 0).val % 256, Nat.mod_lt _ (by decide)⟩ : Fin 256) (⟨(i 1).val, idx2_lt1 i⟩ : Fin 128))

/-- The region-direction output, entry by entry. -/
def wholeR (a3 : S4096x4096.Idx → Elt F .f32) (s : Vec F S4096x128 .bf16) (a6 : S128x128.Idx → Elt F .f32)
    (a1 : S4096x128.Idx → Elt F .f32) (b : S1x128.Idx → Elt F .f32) : S4096x128.Idx → Elt F .f32 :=
  fun i => tileR (rowsAt a3 ((i 0).val / 256) (by have := idx2_lt0 i; omega)) s a6
    (rowsAt a1 ((i 0).val / 256) (by have := idx2_lt0 i; omega)) b
    (ix2 (⟨(i 0).val % 256, Nat.mod_lt _ (by decide)⟩ : Fin 256) (⟨(i 1).val, idx2_lt1 i⟩ : Fin 128))

/-- Inside slab `q` the whole-array function is the tile function of that slab. -/
theorem wholeO_at (a2 : S4096x4096.Idx → Elt F .f32) (s : Vec F S4096x128 .bf16) (a4 : S128x128.Idx → Elt F .f32)
    (a0 : S4096x128.Idx → Elt F .f32) (b : S1x128.Idx → Elt F .f32) (q : ℕ) (hq : q < 16) (i : S4096x128.Idx) (y : S256x128.Idx)
    (h0 : (i 0).val = q * 256 + (y 0).val) (h1 : (i 1).val = (y 1).val) :
    wholeO a2 s a4 a0 b i = tileO (rowsAt a2 q hq) s a4 (rowsAt a0 q hq) b y := by
  have hy0 : (y 0).val < 256 := idx2_lt0 y
  have key : ∀ (q' : ℕ) (hq' : q' < 16) (r' : Fin 256) (j' : Fin 128), q' = q → r'.val = (y 0).val → j'.val = (y 1).val →
      tileO (rowsAt a2 q' hq') s a4 (rowsAt a0 q' hq') b (ix2 r' j') = tileO (rowsAt a2 q hq) s a4 (rowsAt a0 q hq) b y := by
    intro q' hq' r' j' e1 e2 e3
    subst e1
    have ey : ix2 r' j' = y := by
      funext a; apply Fin.ext
      match a with
      | ⟨0, _⟩ => exact e2
      | ⟨1, _⟩ => exact e3
    rw [ey]
  exact key _ _ _ _ (by omega) (by show (i 0).val % 256 = _; omega) h1

theorem wholeR_at (a3 : S4096x4096.Idx → Elt F .f32) (s : Vec F S4096x128 .bf16) (a6 : S128x128.Idx → Elt F .f32)
    (a1 : S4096x128.Idx → Elt F .f32) (b : S1x128.Idx → Elt F .f32) (q : ℕ) (hq : q < 16) (i : S4096x128.Idx) (y : S256x128.Idx)
    (h0 : (i 0).val = q * 256 + (y 0).val) (h1 : (i 1).val = (y 1).val) :
    wholeR a3 s a6 a1 b i = tileR (rowsAt a3 q hq) s a6 (rowsAt a1 q hq) b y := by
  have hy0 : (y 0).val < 256 := idx2_lt0 y
  have key : ∀ (q' : ℕ) (hq' : q' < 16) (r' : Fin 256) (j' : Fin 128), q' = q → r'.val = (y 0).val → j'.val = (y 1).val →
      tileR (rowsAt a3 q' hq') s a6 (rowsAt a1 q' hq') b (ix2 r' j') = tileR (rowsAt a3 q hq) s a6 (rowsAt a1 q hq) b y := by
    intro q' hq' r' j' e1 e2 e3
    subst e1
    have ey : ix2 r' j' = y := by
      funext a; apply Fin.ext
      match a with
      | ⟨0, _⟩ => exact e2
      | ⟨1, _⟩ => exact e3
    rw [ey]
  exact key _ _ _ _ (by omega) (by show (i 0).val % 256 = _; omega) h1

/-- The first output array as a function of the argument arrays. -/
def G10 (c : Dev nD) : S4096x128.Idx → Elt F .f32 :=
  wholeO (m ((c.tc : Thread nD τ).loc main_arg2)) (k0_pay3 (m ((c.tc : Thread nD τ).loc main_arg1)))
    (m ((c.tc : Thread nD τ).loc main_arg4)) (m ((c.tc : Thread nD τ).loc main_arg0)) (asRow (m ((c.tc : Thread nD τ).loc main_arg5)))

/-- The second output array as a function of the argument arrays. -/
def G11 (c : Dev nD) : S4096x128.Idx → Elt F .f32 :=
  wholeR (m ((c.tc : Thread nD τ).loc main_arg3)) (k0_pay2 (m ((c.tc : Thread nD τ).loc main_arg0)))
    (m ((c.tc : Thread nD τ).loc main_arg6)) (m ((c.tc : Thread nD τ).loc main_arg1)) (asRow (m ((c.tc : Thread nD τ).loc main_arg7)))

/-! ## What a point writes back, the cover, the arrays after the run -/

/-- What point `t` writes back to the first output is block `t` of `G10`. -/
theorem flushed10_eq (c : Dev nD) (t : Fin cfg0.N) :
    (dats m 0 c).flushed 10 t = ((cfg0.win 10).blk t).view.read (Elt F) (G10 m c) := by
  show (cfg0.win 10).cut (grid0.coords t) ((dats m 0 c).after 10 t) = _
  rw [after0_10]
  obtain ⟨-, -, -, -, -, -, -, -, -, -, -, -, -, -, -, -, -, -, -, -, e0, e1, -⟩ := idx_facts t
  funext y
  rw [View.read_apply]
  show tileO (iblk m c 0 t) (srcR m c) (iblk m c 6 t) (iblk m c 4 t) (iblk m c 8 t) y = G10 m c (((cfg0.win 10).blk t).view.emb y)
  rw [iblk0_rows, srcR_eq, iblk6_whole, iblk4_rows, iblk8_row]
  unfold G10
  refine (wholeO_at _ _ _ _ _ t.val (t_lt t) _ y ?_ ?_).symm
  · show win0_10.index t (0 : Fin 2) * 256 + 1 * (y 0).val = t.val * 256 + (y 0).val; rw [e0]; omega
  · show win0_10.index t (1 : Fin 2) * 128 + 1 * (y 1).val = (y 1).val; rw [e1]; omega

/-- What point `t` writes back to the second output is block `t` of `G11`. -/
theorem flushed11_eq (c : Dev nD) (t : Fin cfg0.N) :
    (dats m 0 c).flushed 11 t = ((cfg0.win 11).blk t).view.read (Elt F) (G11 m c) := by
  show (cfg0.win 11).cut (grid0.coords t) ((dats m 0 c).after 11 t) = _
  rw [after0_11]
  obtain ⟨-, -, -, -, -, -, -, -, -, -, -, -, -, -, -, -, -, -, -, -, -, -, e0, e1⟩ := idx_facts t
  funext y
  rw [View.read_apply]
  show tileR (iblk m c 1 t) (srcO m c) (iblk m c 7 t) (iblk m c 5 t) (iblk m c 9 t) y = G11 m c (((cfg0.win 11).blk t).view.emb y)
  rw [iblk1_rows, srcO_eq, iblk7_whole, iblk5_rows, iblk9_row]
  unfold G11
  refine (wholeR_at _ _ _ _ _ t.val (t_lt t) _ y ?_ ?_).symm
  · show win0_11.index t (0 : Fin 2) * 256 + 1 * (y 0).val = t.val * 256 + (y 0).val; rw [e0]; omega
  · show win0_11.index t (1 : Fin 2) * 128 + 1 * (y 1).val = (y 1).val; rw [e1]; omega

/-- An index of the first output array is in point `t`'s block iff each coordinate is in the block's range on its axis. -/
theorem mem_blk10 (t : Fin cfg0.N) (i : S4096x128.Idx) :
    i ∈ ((cfg0.win 10).blk t).view.set ↔ ∀ a : Fin 2, win0_10.index t a * S256x128.size a ≤ (i a).val ∧ (i a).val < win0_10.index t a * S256x128.size a + S256x128.size a := by
  show i ∈ ((View.whole main_v2_0).slice (win0_10.rect t)).set ↔ _
  rw [View.set_slice_whole, Rect.mem_set_unit]
  exact Iff.rfl

theorem mem_blk11 (t : Fin cfg0.N) (i : S4096x128.Idx) :
    i ∈ ((cfg0.win 11).blk t).view.set ↔ ∀ a : Fin 2, win0_11.index t a * S256x128.size a ≤ (i a).val ∧ (i a).val < win0_11.index t a * S256x128.size a + S256x128.size a := by
  show i ∈ ((View.whole main_v2_1).slice (win0_11.rect t)).set ↔ _
  rw [View.set_slice_whole, Rect.mem_set_unit]
  exact Iff.rfl

/-- Every entry of the first output is in the block of the point its row's slab names, and that point writes back. -/
theorem cover10 (i : S4096x128.Idx) : ∃ t : Fin cfg0.N, (cfg0.win 10).flush t = true ∧ i ∈ ((cfg0.win 10).blk t).view.set := by
  have hi0 : (i 0).val < 4096 := idx2_lt0 i
  have hi1 : (i 1).val < 128 := idx2_lt1 i
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, -, -, -, -, -, -, -, -, -, -, -, -, e0, e1, -⟩ := idx_facts t
  refine ⟨t, flush0_10 t, ?_⟩
  rw [mem_blk10]
  intro a
  match a with
  | ⟨0, _⟩ => show win0_10.index t (0 : Fin 2) * 256 ≤ (i 0).val ∧ (i 0).val < win0_10.index t (0 : Fin 2) * 256 + 256; rw [e0, ht]; omega
  | ⟨1, _⟩ => show win0_10.index t (1 : Fin 2) * 128 ≤ (i 1).val ∧ (i 1).val < win0_10.index t (1 : Fin 2) * 128 + 128; rw [e1]; omega

theorem cover11 (i : S4096x128.Idx) : ∃ t : Fin cfg0.N, (cfg0.win 11).flush t = true ∧ i ∈ ((cfg0.win 11).blk t).view.set := by
  have hi0 : (i 0).val < 4096 := idx2_lt0 i
  have hi1 : (i 1).val < 128 := idx2_lt1 i
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, -, -, -, -, -, -, -, -, -, -, -, -, -, -, e0, e1⟩ := idx_facts t
  refine ⟨t, flush0_11 t, ?_⟩
  rw [mem_blk11]
  intro a
  match a with
  | ⟨0, _⟩ => show win0_11.index t (0 : Fin 2) * 256 ≤ (i 0).val ∧ (i 0).val < win0_11.index t (0 : Fin 2) * 256 + 256; rw [e0, ht]; omega
  | ⟨1, _⟩ => show win0_11.index t (1 : Fin 2) * 128 ≤ (i 1).val ∧ (i 1).val < win0_11.index t (1 : Fin 2) * 128 + 128; rw [e1]; omega

/-- The first output array after the run. -/
theorem final10 (c : Dev nD) : (dats m 0 c).arrAt 10 cfg0.N = G10 m c :=
  (dats m 0 c).arrAt_eq_of_cover 10 (G10 m c) (fun t _ => flushed10_eq m c t) cover10

/-- The second output array after the run. -/
theorem final11 (c : Dev nD) : (dats m 0 c).arrAt 11 cfg0.N = G11 m c :=
  (dats m 0 c).arrAt_eq_of_cover 11 (G11 m c) (fun t _ => flushed11_eq m c t) cover11

/-- Entry `(r, j)` of the first output array after the run. -/
theorem out10_entry (c : Dev nD) (r : Fin 4096) (j : Fin 128) :
    ((dats m 0 c).arrAt 10 cfg0.N : S4096x128.Idx → Elt F .f32) (ix2 r j)
      = tileO (rowsAt (m ((c.tc : Thread nD τ).loc main_arg2)) (r.val / 256) (by have := r.isLt; omega))
          (k0_pay3 (m ((c.tc : Thread nD τ).loc main_arg1)))
          (m ((c.tc : Thread nD τ).loc main_arg4))
          (rowsAt (m ((c.tc : Thread nD τ).loc main_arg0)) (r.val / 256) (by have := r.isLt; omega))
          (asRow (m ((c.tc : Thread nD τ).loc main_arg5)))
          (ix2 (⟨r.val % 256, Nat.mod_lt _ (by decide)⟩ : Fin 256) j) := by
  rw [final10]
  rfl

/-- Entry `(r, j)` of the second output array after the run. -/
theorem out11_entry (c : Dev nD) (r : Fin 4096) (j : Fin 128) :
    ((dats m 0 c).arrAt 11 cfg0.N : S4096x128.Idx → Elt F .f32) (ix2 r j)
      = tileR (rowsAt (m ((c.tc : Thread nD τ).loc main_arg3)) (r.val / 256) (by have := r.isLt; omega))
          (k0_pay2 (m ((c.tc : Thread nD τ).loc main_arg0)))
          (m ((c.tc : Thread nD τ).loc main_arg6))
          (rowsAt (m ((c.tc : Thread nD τ).loc main_arg1)) (r.val / 256) (by have := r.isLt; omega))
          (asRow (m ((c.tc : Thread nD τ).loc main_arg7)))
          (ix2 (⟨r.val % 256, Nat.mod_lt _ (by decide)⟩ : Fin 256) j) := by
  rw [final11]
  rfl

end Cert.KernelIdeal.Hand

end
-- ==== Proof.Spec.lean ====
/-
  The mathematics both programs compute, for ONE direction of message passing, on the extended reals.
  A target row `r` selects the source rows `k` whose matrix entry is positive; `cnt r` counts them and
  `acc r d` sums their features. The kernel rectifies the SUM, applies the linear map and scales the
  result by `1 / cnt` at the end; the reference divides the sum by `cnt` first (the mean), rectifies and
  applies the linear map. For finite features and weights the two agree: rectification and the linear map
  commute with multiplication by the positive real `1 / cnt`, and a row that selects nothing gives zero on
  both sides.
-/
import Idealize.ShloMosaic.PureOps.Ideal
import Idealize.ShloMosaic.PureOps.Ideal.Laws
import Idealize.ShloMosaic.Lib.ValueIdx

noncomputable section

namespace Cert.Spec

open Idealize.ShloMosaic

/-- The selection indicator of a matrix entry: one where the entry is positive, zero elsewhere. -/
def ind (x : EReal) : EReal := if 0 < x then 1 else 0

/-! ### Real arithmetic under the coercion into the extended reals -/

/-- The selection indicator as a real number. -/
private def indR (x : EReal) : ℝ := if 0 < x then 1 else 0

/-- The indicator is the coercion of its real counterpart. -/
private theorem ind_eq (x : EReal) : ind x = (indR x : EReal) := by
  unfold ind indR; split_ifs <;> simp

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with the maximum. -/
private theorem coe_max (x y : ℝ) : ((max x y : ℝ) : EReal) = max (x : EReal) (y : EReal) :=
  EReal.coe_strictMono.monotone.map_max

/-- Over the reals: rectification and a linear form commute with scaling by `k ≥ 0`,
    since `max (a * k) 0 = max a 0 * k`. -/
private theorem real_core (a w : Fin 128 → ℝ) (k : ℝ) (hk : 0 ≤ k) :
    (∑ d, max (a d) 0 * w d) * k = ∑ d, max (a d * k) 0 * w d := by
  rw [Finset.sum_mul]
  refine Finset.sum_congr rfl (fun d _ => ?_)
  rw [mul_right_comm, max_mul_of_nonneg _ _ hk, zero_mul]

/-- The same on the extended reals at real arguments: every term is the coercion of a real. -/
private theorem ereal_core (a w : Fin 128 → ℝ) (k : ℝ) (hk : 0 ≤ k) :
    (∑ d, max (a d : EReal) 0 * (w d : EReal)) * (k : EReal)
      = ∑ d, max ((a d : EReal) * (k : EReal)) 0 * (w d : EReal) := by
  have h1 : ∀ d, max (a d : EReal) 0 * (w d : EReal) = ((max (a d) 0 * w d : ℝ) : EReal) := by
    intro d; rw [EReal.coe_mul, coe_max, EReal.coe_zero]
  have h2 : ∀ d, max ((a d : EReal) * (k : EReal)) 0 * (w d : EReal)
      = ((max (a d * k) 0 * w d : ℝ) : EReal) := by
    intro d; rw [EReal.coe_mul, coe_max, EReal.coe_mul, EReal.coe_zero]
  simp only [h1, h2]
  rw [← coe_sum, ← coe_sum, ← EReal.coe_mul, real_core a w k hk]

/-- The two arrangements at a real count `n`, real sums `a` and real weights `w`. Where `0 < n` the
    divisor `max n 1` is a positive real `c`, division by it is multiplication by `1 / c ≥ 0`, and the
    real identity above applies; where not, the scale and the mean are zero and both sides vanish. -/
private theorem scaled (n : ℝ) (a w : Fin 128 → ℝ) :
    (∑ d, max (a d : EReal) 0 * (w d : EReal))
        * (if 0 < (n : EReal) then Ideal.div 1 (max (n : EReal) 1) else 0)
      = ∑ d, max (if 0 < (n : EReal) then Ideal.div (a d : EReal) (max (n : EReal) 1) else 0) 0
          * (w d : EReal) := by
  by_cases h : 0 < (n : EReal)
  · simp only [if_pos h]
    have hc : max (n : EReal) 1 = ((max n 1 : ℝ) : EReal) := by rw [coe_max, EReal.coe_one]
    have hc0 : (max n 1 : ℝ) ≠ 0 := (lt_of_lt_of_le one_pos (le_max_right n 1)).ne'
    have hk : (0 : ℝ) ≤ 1 / max n 1 := one_div_nonneg.mpr (le_trans zero_le_one (le_max_right n 1))
    rw [hc, Ideal.div_coe hc0, one_mul]
    simp only [Ideal.div_coe hc0]
    exact ereal_core a w _ hk
  · simp only [if_neg h, mul_zero, max_self, zero_mul, Finset.sum_const_zero]

variable (mat : Fin 4096 → Fin 4096 → EReal) (src : Fin 4096 → Fin 128 → EReal)
  (tgt : Fin 4096 → Fin 128 → EReal) (W : Fin 128 → Fin 128 → EReal) (b : Fin 128 → EReal)

/-- How many source rows target row `r` selects. -/
def cnt (r : Fin 4096) : EReal := ∑ k : Fin 4096, ind (mat r k)

/-- The sum of the selected source rows' features. -/
def acc (r : Fin 4096) (d : Fin 128) : EReal := ∑ k : Fin 4096, ind (mat r k) * src k d

/-- The per-row scale: `1 / max cnt 1` where the row selects something, zero where it selects nothing. -/
def inv (r : Fin 4096) : EReal := if 0 < cnt mat r then Ideal.div 1 (max (cnt mat r) 1) else 0

/-- The kernel's arrangement: rectify the sum, apply the linear map, scale the row last. -/
def kerOut (r : Fin 4096) (j : Fin 128) : EReal :=
  tgt r j + (∑ d : Fin 128, max (acc mat src r d) 0 * W j d) * inv mat r + b j

/-- The mean message of row `r`: the sum over the count, zero for a row that selects nothing. -/
def msg (r : Fin 4096) (d : Fin 128) : EReal :=
  if 0 < cnt mat r then Ideal.div (acc mat src r d) (max (cnt mat r) 1) else 0

/-- The reference's arrangement: the mean first, then rectification and the linear map. -/
def refOut (r : Fin 4096) (j : Fin 128) : EReal :=
  tgt r j + (∑ d : Fin 128, max (msg mat src r d) 0 * W j d) + b j

/-- The word of the float one denotes the real one: sign 0, exponent field 127 (the bias),
    fraction 0, so `2 ^ 23 * 2 ^ (127 - 127 - 23) = 1`. -/
theorem ofBits_one : Ideal.ofBits .f32 0x3F800000#32 = (1 : EReal) := by
  simp [Ideal.ofBits, Ideal.ieee, -EReal.coe_mul]
  norm_num

/-- The word of the float infinity denotes the top element: sign 0, all-ones exponent field,
    fraction 0. -/
theorem ofBits_inf : Ideal.ofBits .f32 0x7F800000#32 = (⊤ : EReal) := by
  simp [Ideal.ofBits, Ideal.ieee]

/-- For finite source features and finite weights the two arrangements agree at every entry. -/
theorem kerOut_eq_refOut (hsrc : ∀ k d, ∃ x : ℝ, src k d = (x : EReal)) (hW : ∀ j d, ∃ x : ℝ, W j d = (x : EReal))
    (r : Fin 4096) (j : Fin 128) :
    kerOut mat src tgt W b r j = refOut mat src tgt W b r j := by
  choose s hs using hsrc
  choose w hw using hW
  -- the count is the coercion of a real: a finite sum of real indicators
  have hcnt : cnt mat r = ((∑ k, indR (mat r k) : ℝ) : EReal) := by
    unfold cnt; rw [coe_sum]; exact Finset.sum_congr rfl (fun k _ => ind_eq _)
  -- so is every feature sum, the features being real
  have hacc : ∀ d, acc mat src r d = ((∑ k, indR (mat r k) * s k d : ℝ) : EReal) := by
    intro d; unfold acc; rw [coe_sum]
    refine Finset.sum_congr rfl (fun k _ => ?_)
    rw [ind_eq, hs, EReal.coe_mul]
  unfold kerOut refOut inv msg
  simp only [hcnt, hacc, hw]
  rw [scaled]

end Cert.Spec

end
-- ==== Proof.TileIdeal.lean ====
/-
  One entry of an output tile, on the extended reals.

  For the tile's row `p` the body counts the positive entries of the matrix block's row (`∑ k, ind`), sums the
  selected source rows' features by a matrix product with the 0/1 mask, rectifies, applies the weight matrix
  (contracting the weights' SECOND axis: the product with the transpose), scales the row by `1 / max cnt 1`
  (zero for a row that selects nothing) and adds the target entry and the bias. Narrowing a float to bf16 and
  widening an integer are exact on the extended reals, so the two bf16 copies are the feature arrays themselves.
-/
import proofs.«172328_g7610682049159_cont_9to1_m_1368_17_alg».proof.Proof.Gen.KernelIdeal.Skeleton
import proofs.«172328_g7610682049159_cont_9to1_m_1368_17_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileValue

open Idealize.ShloMosaic Idealize.ShloMosaic.ValueIdx Cert.KernelIdeal Cert.KernelIdeal.Gen

/-- Entry `(p, j)` of a tile: matrix block `x0`, source features `s`, weights `w`, target rows `x4`, bias row `brow`. -/
def tileSpec (x0 : S256x4096.Idx → EReal) (s : S4096x128.Idx → EReal) (w : S128x128.Idx → EReal)
    (x4 : S256x128.Idx → EReal) (brow : S1x128.Idx → EReal) (p : Fin 256) (j : Fin 128) : EReal :=
  x4 (ix2 p j)
    + (∑ d : Fin 128, max (∑ k : Fin 4096, Cert.Spec.ind (x0 (ix2 p k)) * s (ix2 k d)) 0 * w (ix2 j d))
      * (if 0 < ∑ k : Fin 4096, Cert.Spec.ind (x0 (ix2 p k)) then Ideal.div 1 (max (∑ k : Fin 4096, Cert.Spec.ind (x0 (ix2 p k))) 1) else 0)
    + brow (ix2 (0 : Fin 1) j)

/-- A signed word converted exactly: the integer it spells, as an extended real. -/
private theorem sitofp_elt (b : BitVec 32) : (FloatOps.sitofp (F := Ideal) .f32 b : EReal) = ((b.toInt : ℝ) : EReal) := rfl

/-- The 0/1 word of "the entry is positive", widened and converted, is the selection indicator. -/
private theorem mask_elt (x : EReal) :
    (FloatOps.sitofp (F := Ideal) .f32 ((FloatOps.cmpf (F := Ideal) (φ := .f32) .ogt x (Ideal.ofBits .f32 0x00000000#32)).setWidth 32) : EReal)
      = Cert.Spec.ind x := by
  rw [Ideal.cmpf_def]
  unfold Ideal.cmp Cert.Spec.ind
  rw [Ideal.ofBits_zero_f32]
  by_cases h : (0 : EReal) < x
  · simp only [h, decide_true, BitVec.ofBool_true, if_true]
    rw [sitofp_elt, show ((1 : BitVec 1).setWidth 32).toInt = 1 by decide]
    simp
  · simp only [h, decide_false, BitVec.ofBool_false, if_false]
    rw [sitofp_elt, show ((0 : BitVec 1).setWidth 32).toInt = 0 by decide]
    simp

/-- The mask of a matrix block: one where the entry is positive, zero elsewhere, as a float array. -/
private def maskV (x0 : Vec Ideal S256x4096 .f32) : FVec Ideal S256x4096 .f32 :=
  sitofp .f32 (extui 32 (cmpf .ogt x0 (broadcast S256x4096 (Scalar.ofBits (F := Ideal) .f32 0x00000000#32))) natLt_1_32)

private theorem maskV_apply (x0 : Vec Ideal S256x4096 .f32) (i : S256x4096.Idx) : maskV x0 i = Cert.Spec.ind (x0 i) :=
  mask_elt (x0 i)

/-- The lane sum of a block's row: the sum of the row's entries. -/
private theorem rowsum_apply (v : FVec Ideal S256x4096 .f32) (hφ : FKind.Formats .f32)
    (hacc : (0x00000000#32 : BitVec 32) = 0x00000000#32) (p : Fin 256) :
    multiReduction (F := Ideal) .add [1] S256 v 0x00000000#32 reduces_S256x4096_S256 hφ hacc (ix1 p)
      = ∑ k : Fin 4096, v (ix2 p k) := by
  refine (Ideal.multiReduction_add_single v 0x00000000#32 reduces_S256x4096_S256 hφ hacc (ix1 p)).trans ?_
  show ∑ k : Fin 4096, v (reduces_S256x4096_S256.lift (ix1 p) k) = _
  refine Finset.sum_congr rfl fun k _ => congrArg v (funext fun a => Fin.ext ?_)
  match a with
  | ⟨0, _⟩ => rfl
  | ⟨1, _⟩ => rfl

/-! ### The first product: rows of the mask against columns of the features -/

private theorem lhs_mm1_0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
private theorem lhs_mm1_1 (i : S256x128.Idx) (q : dot_S256x4096_S4096x128_S256x128_1_0_0_1_n_n.contr.Idx) :
    (dot_S256x4096_S4096x128_S256x128_1_0_0_1_n_n.lhsIdx i q 1).val = (q ⟨0, by decide⟩).val :=
  dot_S256x4096_S4096x128_S256x128_1_0_0_1_n_n.lhsIdx_val_of_single rfl i q
private theorem rhs_mm1_0 (i : S256x128.Idx) (q : dot_S256x4096_S4096x128_S256x128_1_0_0_1_n_n.contr.Idx) :
    (dot_S256x4096_S4096x128_S256x128_1_0_0_1_n_n.rhsIdx i q 0).val = (q ⟨0, by decide⟩).val :=
  dot_S256x4096_S4096x128_S256x128_1_0_0_1_n_n.rhsIdx_val_of_single rfl i q
private theorem rhs_mm1_1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

/-- Entry `(p, j)` of the first product into the zero accumulator: `∑ k, l (p, k) * r (k, j)`. -/
private theorem mm1_apply (l : FVec Ideal S256x4096 .bf16) (r : FVec Ideal S4096x128 .bf16) (p : Fin 256) (j : Fin 128) :
    matmul dot_S256x4096_S4096x128_S256x128_1_0_0_1_n_n none l r (constant (F := Ideal) S256x128 .f32 0x00000000#32) (ix2 p j)
      = ∑ k : Fin 4096, l (ix2 p k) * r (ix2 k j) := by
  simp only [matmul]
  rw [Ideal.matmul_constant_zero_apply, ← Equiv.sum_comp (contrEquiv1 dot_S256x4096_S4096x128_S256x128_1_0_0_1_n_n 4096 rfl rfl).symm]
  refine Finset.sum_congr rfl fun k _ => ?_
  have hk := contrEquiv1_symm_val dot_S256x4096_S4096x128_S256x128_1_0_0_1_n_n 4096 rfl rfl k
  have el : dot_S256x4096_S4096x128_S256x128_1_0_0_1_n_n.lhsIdx (ix2 p j) ((contrEquiv1 dot_S256x4096_S4096x128_S256x128_1_0_0_1_n_n 4096 rfl rfl).symm k) = ix2 p k := funext fun a => Fin.ext (by
    match a with
    | ⟨0, _⟩ => exact lhs_mm1_0 _ _
    | ⟨1, _⟩ => exact (lhs_mm1_1 _ _).trans hk)
  have er : dot_S256x4096_S4096x128_S256x128_1_0_0_1_n_n.rhsIdx (ix2 p j) ((contrEquiv1 dot_S256x4096_S4096x128_S256x128_1_0_0_1_n_n 4096 rfl rfl).symm k) = ix2 k j := funext fun a => Fin.ext (by
    match a with
    | ⟨0, _⟩ => exact (rhs_mm1_0 _ _).trans hk
    | ⟨1, _⟩ => exact rhs_mm1_1 _ _)
  rw [el, er]

/-! ### The second product: rows of the hidden block against ROWS of the weights (both second axes contracted) -/

private theorem lhs_mm2_0 (i : S256x128.Idx) (q : dot_S256x128_S128x128_S256x128_1_1_0_0_n_n.contr.Idx) :
    (dot_S256x128_S128x128_S256x128_1_1_0_0_n_n.lhsIdx i q 0).val = (i 0).val := by
  unfold DotDims.lhsIdx
  rw [dif_neg (show ¬(0 : Fin S256x128.rank) ∈ dot_S256x128_S128x128_S256x128_1_1_0_0_n_n.lhsBatch by decide), dif_pos (show (0 : Fin S256x128.rank) ∈ dot_S256x128_S128x128_S256x128_1_1_0_0_n_n.lhsNonContracting by decide)]
  rfl
private theorem lhs_mm2_1 (i : S256x128.Idx) (q : dot_S256x128_S128x128_S256x128_1_1_0_0_n_n.contr.Idx) :
    (dot_S256x128_S128x128_S256x128_1_1_0_0_n_n.lhsIdx i q 1).val = (q ⟨0, by decide⟩).val :=
  dot_S256x128_S128x128_S256x128_1_1_0_0_n_n.lhsIdx_val_of_single rfl i q
private theorem rhs_mm2_0 (i : S256x128.Idx) (q : dot_S256x128_S128x128_S256x128_1_1_0_0_n_n.contr.Idx) :
    (dot_S256x128_S128x128_S256x128_1_1_0_0_n_n.rhsIdx i q 0).val = (i 1).val := by
  unfold DotDims.rhsIdx
  rw [dif_neg (show ¬(0 : Fin S128x128.rank) ∈ dot_S256x128_S128x128_S256x128_1_1_0_0_n_n.rhsBatch by decide), dif_pos (show (0 : Fin S128x128.rank) ∈ dot_S256x128_S128x128_S256x128_1_1_0_0_n_n.rhsNonContracting by decide)]
  rfl
private theorem rhs_mm2_1 (i : S256x128.Idx) (q : dot_S256x128_S128x128_S256x128_1_1_0_0_n_n.contr.Idx) :
    (dot_S256x128_S128x128_S256x128_1_1_0_0_n_n.rhsIdx i q 1).val = (q ⟨0, by decide⟩).val :=
  dot_S256x128_S128x128_S256x128_1_1_0_0_n_n.rhsIdx_val_of_single rfl i q

/-- Entry `(p, j)` of the second product into the zero accumulator: `∑ d, l (p, d) * r (j, d)`. -/
private theorem mm2_apply (l : FVec Ideal S256x128 .f32) (r : FVec Ideal S128x128 .f32) (p : Fin 256) (j : Fin 128) :
    matmul dot_S256x128_S128x128_S256x128_1_1_0_0_n_n none l r (constant (F := Ideal) S256x128 .f32 0x00000000#32) (ix2 p j)
      = ∑ d : Fin 128, l (ix2 p d) * r (ix2 j d) := by
  simp only [matmul]
  rw [Ideal.matmul_constant_zero_apply, ← Equiv.sum_comp (contrEquiv1 dot_S256x128_S128x128_S256x128_1_1_0_0_n_n 128 rfl rfl).symm]
  refine Finset.sum_congr rfl fun k _ => ?_
  have hk := contrEquiv1_symm_val dot_S256x128_S128x128_S256x128_1_1_0_0_n_n 128 rfl rfl k
  have el : dot_S256x128_S128x128_S256x128_1_1_0_0_n_n.lhsIdx (ix2 p j) ((contrEquiv1 dot_S256x128_S128x128_S256x128_1_1_0_0_n_n 128 rfl rfl).symm k) = ix2 p k := funext fun a => Fin.ext (by
    match a with
    | ⟨0, _⟩ => exact lhs_mm2_0 _ _
    | ⟨1, _⟩ => exact (lhs_mm2_1 _ _).trans hk)
  have er : dot_S256x128_S128x128_S256x128_1_1_0_0_n_n.rhsIdx (ix2 p j) ((contrEquiv1 dot_S256x128_S128x128_S256x128_1_1_0_0_n_n 128 rfl rfl).symm k) = ix2 j k := funext fun a => Fin.ext (by
    match a with
    | ⟨0, _⟩ => exact rhs_mm2_0 _ _
    | ⟨1, _⟩ => exact (rhs_mm2_1 _ _).trans hk)
  rw [el, er]

/-! ### Layout operations on a column of per-row numbers -/

/-- A `[256]` array cast to a `[256, 1]` column reads, at `(p, u)`, the operand at `p`. -/
private theorem col_cast_apply {α : Type} (v : S256.Idx → α) (h : S256.ShapeCasts S256x1) (p : Fin 256) (u : Fin 1) :
    shapeCast S256x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A `[256, 1]` column broadcast along the lanes reads, at `(p, j)`, the column's entry of row `p`. -/
private theorem col_bcast_apply {α : Type} (v : S256x1.Idx → α) (h : S256x1.Broadcasts S256x128) (p : Fin 256) (j : Fin 128) :
    broadcastTo S256x128 v h (ix2 p j) = v (ix2 p (0 : Fin 1)) := by
  refine broadcastTo_apply v h (ix2 p j) (ix2 p (0 : Fin 1)) fun ax => ?_
  match ax with
  | ⟨0, _⟩ => rfl
  | ⟨1, _⟩ => rfl

/-! ### The tile body in four stages -/

/-- The count column: the mask's lane sums, kept as a `[256, 1]` column. -/
private def cntV (x0 : Vec Ideal S256x4096 .f32) : FVec Ideal S256x1 .f32 :=
  shapeCast S256x1 (multiReduction (F := Ideal) .add [1] S256 (maskV x0) 0x00000000#32 reduces_S256x4096_S256 (.inl rfl) rfl) shapeCasts_S256_S256x1

/-- The hidden block: the mask times the features, rectified. -/
private def hidV (x0 : Vec Ideal S256x4096 .f32) (s : FVec Ideal S4096x128 .bf16) : FVec Ideal S256x128 .f32 :=
  maximumf (matmul dot_S256x4096_S4096x128_S256x128_1_0_0_1_n_n none (truncf .bf16 (maskV x0) bitsLt_bf16_f32) s (constant (F := Ideal) S256x128 .f32 0x00000000#32))
    (broadcast S256x128 (Scalar.ofBits (F := Ideal) .f32 0x00000000#32))

/-- The linear map applied to the hidden block. -/
private def linV (x0 : Vec Ideal S256x4096 .f32) (s : FVec Ideal S4096x128 .bf16) (w : FVec Ideal S128x128 .f32) : FVec Ideal S256x128 .f32 :=
  matmul dot_S256x128_S128x128_S256x128_1_1_0_0_n_n none (hidV x0 s) w (constant (F := Ideal) S256x128 .f32 0x00000000#32)

/-- The scale column: `1 / max cnt 1` where the count is positive, zero elsewhere. -/
private def sclV (x0 : Vec Ideal S256x4096 .f32) : FVec Ideal S256x1 .f32 :=
  select (cmpf .ogt (cntV x0) (broadcast S256x1 (Scalar.ofBits (F := Ideal) .f32 0x00000000#32)))
    (divf (broadcast S256x1 (Scalar.ofBits (F := Ideal) .f32 0x3F800000#32)) (maximumf (cntV x0) (broadcast S256x1 (Scalar.ofBits (F := Ideal) .f32 0x3F800000#32))))
    (broadcast S256x1 (Scalar.ofBits (F := Ideal) .f32 0x00000000#32))

/-- The payload is the four stages combined: the substitution of the bound values. -/
private theorem pay4_eq_stages (x0 : Vec Ideal S256x4096 .f32) (s : FVec Ideal S4096x128 .bf16) (w : FVec Ideal S128x128 .f32)
    (x4 : Vec Ideal S256x128 .f32) (b : Vec Ideal S1x128 .f32) :
    k0_pay4 (F := Ideal) x0 s w x4 b
      = addf (addf x4 (mulf (linV x0 s w) (broadcastTo S256x128 (sclV x0) broadcasts_S256x1_S256x128)))
          (broadcastTo S256x128 (shapeCast S1x128 b shapeCasts_S1x128_S1x128) broadcasts_S1x128_S256x128) := rfl

/-- The count column at row `p`: how many entries of the block's row are positive. -/
private theorem cntV_apply (x0 : Vec Ideal S256x4096 .f32) (p : Fin 256) (u : Fin 1) :
    cntV x0 (ix2 p u) = ∑ k : Fin 4096, Cert.Spec.ind (x0 (ix2 p k)) := by
  unfold cntV
  refine (col_cast_apply _ _ p u).trans ?_
  refine (rowsum_apply _ _ _ p).trans ?_
  exact Finset.sum_congr rfl fun k _ => maskV_apply x0 _

/-- The hidden block at `(p, d)`: the rectified sum of the selected rows' feature `d`. -/
private theorem hidV_apply (x0 : Vec Ideal S256x4096 .f32) (s : FVec Ideal S4096x128 .bf16) (p : Fin 256) (d : Fin 128) :
    hidV x0 s (ix2 p d) = max (∑ k : Fin 4096, Cert.Spec.ind (x0 (ix2 p k)) * s (ix2 k d)) 0 := by
  unfold hidV
  rw [maximumf_apply, broadcast_apply, mm1_apply]
  show max _ (Ideal.ofBits .f32 0x00000000#32) = _
  rw [Ideal.ofBits_zero_f32]
  refine congrArg (fun t => max t 0) (Finset.sum_congr rfl fun k _ => ?_)
  rw [truncf_apply, maskV_apply]

/-- The linear map's entry `(p, j)`: the hidden row against row `j` of the weights. -/
private theorem linV_apply (x0 : Vec Ideal S256x4096 .f32) (s : FVec Ideal S4096x128 .bf16) (w : FVec Ideal S128x128 .f32)
    (p : Fin 256) (j : Fin 128) :
    linV x0 s w (ix2 p j)
      = ∑ d : Fin 128, max (∑ k : Fin 4096, Cert.Spec.ind (x0 (ix2 p k)) * s (ix2 k d)) 0 * w (ix2 j d) := by
  unfold linV
  rw [mm2_apply]
  exact Finset.sum_congr rfl fun d _ => by rw [hidV_apply]

/-- A select on the bit of "`c` is positive" is the `if` on that order fact. -/
private theorem select_pos (c a b : EReal) : Scalar.select (Ideal.cmp .ogt c 0) a b = if 0 < c then a else b := by
  unfold Ideal.cmp Scalar.select
  by_cases h : (0 : EReal) < c
  · simp [h]
  · simp [h]

/-- The scale column at row `p`. -/
private theorem sclV_apply (x0 : Vec Ideal S256x4096 .f32) (p : Fin 256) (u : Fin 1) :
    sclV x0 (ix2 p u)
      = if 0 < ∑ k : Fin 4096, Cert.Spec.ind (x0 (ix2 p k))
          then Ideal.div 1 (max (∑ k : Fin 4096, Cert.Spec.ind (x0 (ix2 p k))) 1) else 0 := by
  unfold sclV
  rw [select_apply, cmpf_apply, divf_apply, maximumf_apply, broadcast_apply, broadcast_apply, cntV_apply]
  show Scalar.select (Ideal.cmp .ogt _ (Ideal.ofBits .f32 0x00000000#32))
      (Ideal.div (Ideal.ofBits .f32 0x3F800000#32) (max _ (Ideal.ofBits .f32 0x3F800000#32))) (Ideal.ofBits .f32 0x00000000#32) = _
  rw [Ideal.ofBits_zero_f32, Cert.Spec.ofBits_one, select_pos]

/-- The object-direction payload at an entry. -/
theorem pay4_apply (x0 : Vec Ideal S256x4096 .f32) (s1 : Vec Ideal S4096x128 .bf16) (x6 : Vec Ideal S128x128 .f32)
    (x4 : Vec Ideal S256x128 .f32) (x8 : Vec Ideal S1x128 .f32) (p : Fin 256) (j : Fin 128) :
    k0_pay4 (F := Ideal) x0 s1 x6 x4 x8 (ix2 p j) = tileSpec x0 s1 x6 x4 x8 p j := by
  rw [pay4_eq_stages]
  rw [addf_apply, addf_apply, mulf_apply, col_bcast_apply, broadcastTo_1b_ab_apply, shapeCast_self, linV_apply, sclV_apply]
  rfl

/-- The region-direction payload is the same term as the object-direction one. -/
private theorem pay1_eq_pay4 (x1 : Vec Ideal S256x4096 .f32) (s0 : Vec Ideal S4096x128 .bf16) (x7 : Vec Ideal S128x128 .f32)
    (x5 : Vec Ideal S256x128 .f32) (x9 : Vec Ideal S1x128 .f32) :
    k0_pay1 (F := Ideal) x1 s0 x7 x5 x9 = k0_pay4 (F := Ideal) x1 s0 x7 x5 x9 := rfl

/-- The region-direction payload at an entry: the same function of its own operands. -/
theorem pay1_apply (x1 : Vec Ideal S256x4096 .f32) (s0 : Vec Ideal S4096x128 .bf16) (x7 : Vec Ideal S128x128 .f32)
    (x5 : Vec Ideal S256x128 .f32) (x9 : Vec Ideal S1x128 .f32) (p : Fin 256) (j : Fin 128) :
    k0_pay1 (F := Ideal) x1 s0 x7 x5 x9 (ix2 p j) = tileSpec x1 s0 x7 x5 x9 p j := by
  rw [pay1_eq_pay4]
  exact pay4_apply x1 s0 x7 x5 x9 p j

/-- The bf16 copy of an array is the array, on the extended reals. -/
theorem pay2_eq (x : Vec Ideal S4096x128 .f32) : (k0_pay2 (F := Ideal) x : S4096x128.Idx → EReal) = x := by
  unfold k0_pay2
  exact shapeCast_self _ _
theorem pay3_eq (x : Vec Ideal S4096x128 .f32) : (k0_pay3 (F := Ideal) x : S4096x128.Idx → EReal) = x := by
  unfold k0_pay3
  exact shapeCast_self _ _

end Cert.KernelIdeal.TileValue

end
-- ==== Proof.KIValue.lean ====
/-
  Each output array of the idealized kernel, entry by entry, is the kernel's arrangement of the message-passing
  formula (`Cert.Spec.kerOut`) of its direction's argument arrays: the tile that covers row `r` reads rows
  `256 (r / 256) …` of the matrix and of the targets, and row `r mod 256` of that slab is row `r` of the array.
-/
import proofs.«172328_g7610682049159_cont_9to1_m_1368_17_alg».proof.Proof.KIBlocks
import proofs.«172328_g7610682049159_cont_9to1_m_1368_17_alg».proof.Proof.TileIdeal
import proofs.«172328_g7610682049159_cont_9to1_m_1368_17_alg».proof.Proof.Spec

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ)

/-- Row `r mod 256` of the slab of 256 rows that holds row `r` is row `r`. -/
theorem slab_row (r : Fin 4096) (h : r.val / 256 * 256 + r.val % 256 < 4096) :
    (⟨r.val / 256 * 256 + r.val % 256, h⟩ : Fin 4096) = r := Fin.ext (Nat.div_add_mod' r.val 256)

/-- Row `r mod 256` of the slab of 256 rows that holds row `r` is row `r` of the array. -/
theorem rowsAt_slab {C : ℕ} {α : Type} (a : (⟨2, ![4096, C]⟩ : Shape).Idx → α) (r : Fin 4096) (k : Fin C)
    (hq : r.val / 256 < 16) (hp : r.val % 256 < 256) :
    rowsAt a (r.val / 256) hq (ix2 (⟨r.val % 256, hp⟩ : Fin 256) k) = a (ix2 r k) := by
  unfold rowsAt
  congr 1
  funext d
  match d with
  | ⟨0, _⟩ => exact Fin.ext (Nat.div_add_mod' r.val 256)
  | ⟨1, _⟩ => rfl

/-- The bias as a row, read at `(0, j)`, is the bias at `j`. -/
theorem asRow_apply {α : Type} (b : (⟨1, ![128]⟩ : Shape).Idx → α) (j : Fin 128) : asRow b (ix2 (0 : Fin 1) j) = b (ix1 j) := rfl

/-- The first output array at entry `(r, j)`: the object direction (matrix `arg2`, sources `arg1`, targets `arg0`,
    weights `arg4`, bias `arg5`). -/
theorem out10_spec (c : Dev nD) (r : Fin 4096) (j : Fin 128) :
    ((dats m 0 c).arrAt 10 cfg0.N : S4096x128.Idx → EReal) (ix2 r j)
      = Cert.Spec.kerOut (fun r k => (m ((c.tc : Thread nD τ).loc main_arg2)) (ix2 r k)) (fun k d => (m ((c.tc : Thread nD τ).loc main_arg1)) (ix2 k d))
          (fun r j => (m ((c.tc : Thread nD τ).loc main_arg0)) (ix2 r j)) (fun j d => (m ((c.tc : Thread nD τ).loc main_arg4)) (ix2 j d)) (fun j => (m ((c.tc : Thread nD τ).loc main_arg5)) (ix1 j)) r j := by
  rw [out10_entry (F := Ideal) m c r j]
  show k0_pay4 (F := Ideal) _ _ _ _ _ (ix2 _ j) = _
  rw [TileValue.pay4_apply]
  unfold TileValue.tileSpec Cert.Spec.kerOut Cert.Spec.acc Cert.Spec.inv Cert.Spec.cnt
  rw [TileValue.pay3_eq]
  simp only [rowsAt_slab, asRow_apply]

/-- The second output array at entry `(r, j)`: the region direction (matrix `arg3`, sources `arg0`, targets `arg1`,
    weights `arg6`, bias `arg7`). -/
theorem out11_spec (c : Dev nD) (r : Fin 4096) (j : Fin 128) :
    ((dats m 0 c).arrAt 11 cfg0.N : S4096x128.Idx → EReal) (ix2 r j)
      = Cert.Spec.kerOut (fun r k => (m ((c.tc : Thread nD τ).loc main_arg3)) (ix2 r k)) (fun k d => (m ((c.tc : Thread nD τ).loc main_arg0)) (ix2 k d))
          (fun r j => (m ((c.tc : Thread nD τ).loc main_arg1)) (ix2 r j)) (fun j d => (m ((c.tc : Thread nD τ).loc main_arg6)) (ix2 j d)) (fun j => (m ((c.tc : Thread nD τ).loc main_arg7)) (ix1 j)) r j := by
  rw [out11_entry (F := Ideal) m c r j]
  show k0_pay1 (F := Ideal) _ _ _ _ _ (ix2 _ j) = _
  rw [TileValue.pay1_apply]
  unfold TileValue.tileSpec Cert.Spec.kerOut Cert.Spec.acc Cert.Spec.inv Cert.Spec.cnt
  rw [TileValue.pay2_eq]
  simp only [rowsAt_slab, asRow_apply]

end Cert.KernelIdeal.Hand

end
-- ==== Proof.RefValue.lean ====
/-
  The reference's two results read at an entry: each is the reference's arrangement of the message-passing
  formula (`Cert.Spec.refOut`) of its direction's arguments — the mean of the selected source rows, rectified,
  through the linear map, plus the target entry and the bias.
-/
import proofs.«172328_g7610682049159_cont_9to1_m_1368_17_alg».proof.Proof.RefReadP
import proofs.«172328_g7610682049159_cont_9to1_m_1368_17_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.ReadP

/-- The converted comparison of a matrix entry against zero is the selection indicator: the comparison's bit is
    one exactly where the entry is positive, and the conversion reads that bit as the number one or zero. -/
private theorem sel_entry (x2 : (⟨S4096x4096, .f32⟩ : BufTy).Contents (Elt Ideal)) (r k : Fin 4096) :
    val_main_v2 (F := Ideal) x2 (ix2 r k) = Cert.Spec.ind (x2 (ix2 r k)) := by
  rw [val_main_v2_apply, val_main_v1_apply, val_main_v0_apply, val_main_cst_apply]
  simp only [Ideal.cmpf_def, Ideal.cmp, Ideal.ofBits_def, Ideal.ofBits_zero_f32, Cert.Spec.ind]
  by_cases h : 0 < x2 (ix2 r k)
  · rw [if_pos h, decide_eq_true h]
    show (((1 : Nat) : ℝ) : EReal) = 1
    simp
  · rw [if_neg h, decide_eq_false h]
    show (((0 : Nat) : ℝ) : EReal) = 0
    simp

/-- The sum of row `r`'s indicators, started from zero, is the count of the source rows that `r` selects. -/
private theorem cnt_entry (x2 : (⟨S4096x4096, .f32⟩ : BufTy).Contents (Elt Ideal)) (r : Fin 4096) :
    val_main_v4 (F := Ideal) x2 (ix1 r) = Cert.Spec.cnt (fun r k => x2 (ix2 r k)) r := by
  have e : ∀ k : Fin 4096, idx_main_v4 (ix1 r) k = ix2 r k := fun k =>
    funext fun a => Fin.ext (by match a with | ⟨0, _⟩ => rfl | ⟨1, _⟩ => rfl)
  rw [val_main_v4_apply, val_main_cst_0_apply]
  simp only [e, sel_entry, Ideal.ofBits_def, Ideal.ofBits_zero_f32, zero_add, Cert.Spec.cnt]

/-- The contraction of row `r`'s indicators with column `d` of the source features is the sum of the selected
    source rows' feature `d`. -/
private theorem acc_entry (x1 : (⟨S4096x128, .f32⟩ : BufTy).Contents (Elt Ideal)) (x2 : (⟨S4096x4096, .f32⟩ : BufTy).Contents (Elt Ideal))
    (r : Fin 4096) (d : Fin 128) :
    val_main_v3 (F := Ideal) x1 x2 (ix2 r d)
      = Cert.Spec.acc (fun r k => x2 (ix2 r k)) (fun k d => x1 (ix2 k d)) r d := by
  have el : ∀ k : Fin 4096, lidx_main_v3 (ix2 r d) k = ix2 r k := fun k =>
    funext fun a => Fin.ext (by match a with | ⟨0, _⟩ => rfl | ⟨1, _⟩ => rfl)
  have er : ∀ k : Fin 4096, ridx_main_v3 (ix2 r d) k = ix2 k d := fun k =>
    funext fun a => Fin.ext (by match a with | ⟨0, _⟩ => rfl | ⟨1, _⟩ => rfl)
  rw [val_main_v3_apply]
  simp only [el, er, sel_entry, Cert.Spec.acc]

/-- The count kept as a one-column matrix: its entry `(r, 0)` is the count of row `r`. -/
private theorem cntcol_entry (x2 : (⟨S4096x4096, .f32⟩ : BufTy).Contents (Elt Ideal)) (r : Fin 4096) :
    val_main_v5 (F := Ideal) x2 (ix2 r (0 : Fin 1)) = Cert.Spec.cnt (fun r k => x2 (ix2 r k)) r := by
  have e : idx_main_v5 (ix2 r (0 : Fin 1)) = ix1 r :=
    funext fun a => Fin.ext (by match a with | ⟨0, _⟩ => rfl)
  rw [val_main_v5_apply, e, cnt_entry]

/-- The guarded quotient is the mean message: where the count is positive, the sum over the larger of the count
    and one; elsewhere zero. The guard's bit is one exactly where the count is positive. -/
private theorem msg_entry (x1 : (⟨S4096x128, .f32⟩ : BufTy).Contents (Elt Ideal)) (x2 : (⟨S4096x4096, .f32⟩ : BufTy).Contents (Elt Ideal))
    (r : Fin 4096) (d : Fin 128) :
    val_main_v13 (F := Ideal) x1 x2 (ix2 r d)
      = Cert.Spec.msg (fun r k => x2 (ix2 r k)) (fun k d => x1 (ix2 k d)) r d := by
  have e0 : idx_main_call0_v0 (ix2 r d) = ix2 r (0 : Fin 1) :=
    funext fun a => Fin.ext (by match a with | ⟨0, _⟩ => rfl | ⟨1, _⟩ => rfl)
  have e10 : idx_main_v10 (ix2 r d) = ix2 r (0 : Fin 1) :=
    funext fun a => Fin.ext (by match a with | ⟨0, _⟩ => rfl | ⟨1, _⟩ => rfl)
  rw [val_main_v13_apply, val_main_call0_v0_apply, e0, val_main_v7_apply, val_main_v6_apply, val_main_cst_1_apply,
    val_main_v11_apply, val_main_v10_apply, e10, val_main_v9_apply, val_main_v8_apply, val_main_cst_2_apply,
    val_main_v12_apply, val_main_cst_3_apply, cntcol_entry, acc_entry]
  simp only [Ideal.cmpf_def, Ideal.cmp, Ideal.ofBits_def, Ideal.ofBits_zero_f32, Cert.Spec.ofBits_one,
    Ideal.maximumf_def, Ideal.hostDivf_def, Cert.Spec.msg, Scalar.select]
  by_cases h : 0 < Cert.Spec.cnt (fun r k => x2 (ix2 r k)) r
  · rw [decide_eq_true h, if_pos h, if_pos (by decide)]
  · rw [decide_eq_false h, if_neg h, if_neg (by decide)]

/-- The object-direction result at entry `(r, j)`: targets `x0`, sources `x1`, matrix `x2`, weights `x4`, bias `x5`. -/
theorem v20_entry (x0 x1 : (⟨S4096x128, .f32⟩ : BufTy).Contents (Elt Ideal)) (x2 : (⟨S4096x4096, .f32⟩ : BufTy).Contents (Elt Ideal))
    (x4 : (⟨S128x128, .f32⟩ : BufTy).Contents (Elt Ideal)) (x5 : (⟨S128, .f32⟩ : BufTy).Contents (Elt Ideal)) (r : Fin 4096) (j : Fin 128) :
    val_main_v20 (F := Ideal) x0 x1 x2 x4 x5 (ix2 r j)
      = Cert.Spec.refOut (fun r k => x2 (ix2 r k)) (fun k d => x1 (ix2 k d)) (fun r j => x0 (ix2 r j)) (fun j d => x4 (ix2 j d)) (fun j => x5 (ix1 j)) r j := by
  -- the entry is the target entry, plus the contraction over `d` of the rectified mean message with row `j` of the
  -- weights (the transposed weights read at `(d, j)`), plus the bias entry `j`
  have el : ∀ d : Fin 128, lidx_main_v16 (ix2 r j) d = ix2 r d := fun d =>
    funext fun a => Fin.ext (by match a with | ⟨0, _⟩ => rfl | ⟨1, _⟩ => rfl)
  have er : ∀ d : Fin 128, idx_main_v15 (ridx_main_v16 (ix2 r j) d) = ix2 j d := fun d =>
    funext fun a => Fin.ext (by match a with | ⟨0, _⟩ => rfl | ⟨1, _⟩ => rfl)
  have eb : idx_main_v18 (idx_main_v19 (ix2 r j)) = ix1 j :=
    funext fun a => Fin.ext (by match a with | ⟨0, _⟩ => rfl)
  rw [val_main_v20_apply, val_main_v17_apply, val_main_v16_apply, val_main_v19_apply, val_main_v18_apply, eb]
  simp only [val_main_v14_apply, val_main_v15_apply, val_main_call1_v0_apply, val_main_call1_cst_apply, el, er, msg_entry,
    Ideal.addf_def, Ideal.maximumf_def, Ideal.ofBits_def, Ideal.ofBits_zero_f32, Cert.Spec.refOut]

/-- The region-direction result at entry `(r, j)`: targets `x1`, sources `x0`, matrix `x3`, weights `x6`, bias `x7`. -/
theorem v41_entry (x0 x1 : (⟨S4096x128, .f32⟩ : BufTy).Contents (Elt Ideal)) (x3 : (⟨S4096x4096, .f32⟩ : BufTy).Contents (Elt Ideal))
    (x6 : (⟨S128x128, .f32⟩ : BufTy).Contents (Elt Ideal)) (x7 : (⟨S128, .f32⟩ : BufTy).Contents (Elt Ideal)) (r : Fin 4096) (j : Fin 128) :
    val_main_v41 (F := Ideal) x0 x1 x3 x6 x7 (ix2 r j)
      = Cert.Spec.refOut (fun r k => x3 (ix2 r k)) (fun k d => x0 (ix2 k d)) (fun r j => x1 (ix2 r j)) (fun j d => x6 (ix2 j d)) (fun j => x7 (ix1 j)) r j := by
  -- the second result is the same function as the first, of its own direction's arguments
  have h : val_main_v41 (F := Ideal) x0 x1 x3 x6 x7 = val_main_v20 (F := Ideal) x1 x0 x3 x6 x7 :=
    (val_main_v41_eq (F := Ideal) x0 x1 x3 x6 x7).symm.trans (val_main_v20_eq (F := Ideal) x1 x0 x3 x6 x7)
  rw [h]
  exact v20_entry x1 x0 x3 x6 x7 r j

end Cert.ReferenceIdeal.RefValue

end
-- ==== Proof.FiniteInputs.lean ====
/-
  What the precondition says of the inputs: every entry of every float argument is a real number.

  The printed predicate conjoins, argument by argument, "every entry's absolute value is below +infinity";
  on the extended reals that is exactly "the entry is neither infinity", so each entry is the image of a real.
-/
import proofs.«172328_g7610682049159_cont_9to1_m_1368_17_alg».proof.Pre_finite_inputs
import proofs.«172328_g7610682049159_cont_9to1_m_1368_17_alg».proof.Proof.Gen.Pre_finite_inputs
import Idealize.ShloMosaic.Lib.ReduceAll
import Idealize.ShloMosaic.PureOps.Ideal.Laws

noncomputable section

namespace Cert.FiniteInputs

open Idealize.ShloMosaic Cert.Pre_finite_inputs

/-- The scalar shape has exactly one index: a function out of the empty set of axes. -/
private instance : Subsingleton S_.Idx := ⟨fun _ _ => funext fun d => d.elim0⟩

/-- An extended real whose absolute value, the larger of x and -x, lies strictly below +infinity is a real number:
    at either infinity that maximum is +infinity, which is not below itself. -/
theorem real_of_abs_lt_top (x : EReal) (h : max x (-x) < ⊤) : ∃ r : ℝ, x = (r : EReal) := by
  induction x using EReal.rec with
  | bot => simp at h
  | top => simp at h
  | coe r => exact ⟨r, rfl⟩

/-- The single-precision pattern 0x7F800000 denotes +infinity. -/
theorem ofBits_inf : Ideal.ofBits .f32 0x7F800000#32 = (⊤ : EReal) := by simp [Ideal.ofBits, Ideal.ieee]

/-- One entry: if the comparison |x| < +infinity answers 1 then x is real. -/
theorem real_of_cmp_one (x : Ideal .f32)
    (h : FloatOps.cmpf (F := Ideal) .olt (FloatOps.hostAbsf x) (Ideal.ofBits .f32 0x7F800000#32) = 1#1) :
    ∃ r : ℝ, x = (r : EReal) := by
  refine real_of_abs_lt_top x ?_
  rw [Ideal.cmpf_def, Ideal.hostAbsf_def, Ideal.absf_def, ofBits_inf] at h
  by_contra hn
  simp [Ideal.cmp, hn] at h

/-- One array, of any shape: if the conjunction over all entries of |a i| < +infinity is 1, every entry of a is real. -/
theorem real_of_all {s : Shape} {axes : List (Fin s.rank)} (hb : S_.BroadcastsInDim s (![] : Fin 0 → Fin s.rank))
    (hr : s.ReducesTo axes S_) (hu : 0 < S_.numel) (a : FVec Ideal s .f32) (j : S_.Idx)
    (e : Host.reduce IntOp.andi (cmpf .olt (Host.absf a) (broadcastInDim s ![] hb (constant S_ .f32 0x7F800000#32)))
      (constantI S_ 1 1#1) hr hu j = 1#1) (i : s.Idx) : ∃ r : ℝ, a i = (r : EReal) :=
  real_of_cmp_one (a i) (Host.reduce_andi_all _ _ hr hu j e i)

variable [Cert.Pre_finite_inputs.Facts]

/-- Under the printed precondition at the extended reals, the two feature arrays and the two weight matrices hold
    real numbers at every index. -/
theorem real_of_pre (a0 a1 : FVec Ideal S4096x128 .f32) (a2 a3 : FVec Ideal S4096x4096 .f32) (a4 : FVec Ideal S128x128 .f32)
    (a5 : FVec Ideal S128 .f32) (a6 : FVec Ideal S128x128 .f32) (a7 : FVec Ideal S128 .f32)
    (h : Cert.Pre_finite_inputs.fn (F := Ideal) a0 a1 a2 a3 a4 a5 a6 a7 = fun _ => 1#1) :
    (∀ i, ∃ x : ℝ, a0 i = (x : EReal)) ∧ (∀ i, ∃ x : ℝ, a1 i = (x : EReal))
      ∧ (∀ i, ∃ x : ℝ, a4 i = (x : EReal)) ∧ (∀ i, ∃ x : ℝ, a6 i = (x : EReal)) := by
  have h0 := congrFun h (fun d => d.elim0)
  dsimp only [fn, fn_part1, fn_part2, andi] at h0
  simp only [IntOp.andi_eq_one] at h0
  obtain ⟨⟨⟨⟨⟨⟨⟨e0, e1⟩, _⟩, _⟩, e4⟩, _⟩, e6⟩, _⟩ := h0
  exact ⟨real_of_all _ _ _ a0 _ e0, real_of_all _ _ _ a1 _ e1, real_of_all _ _ _ a4 _ e4, real_of_all _ _ _ a6 _ e6⟩

end Cert.FiniteInputs

end
-- ==== Proof.lean ====
/-
  The certificate of the fused message-passing kernel against its reference.

  Both programs compute, in each of two directions, for every target row the mean of the source rows its matrix
  row selects (the positive entries), rectified, through a linear map, plus the target row and a bias. The
  kernel sums the selected rows by a masked matrix product, rectifies the SUM, applies the linear map and scales
  the row by one over the count at the end; the reference scales first. On the extended reals with finite
  features and weights the two agree (`Cert.Spec.kerOut_eq_refOut`): multiplication by the positive real
  `1 / count` commutes with rectification and with the linear map, and a row that selects nothing gives zero
  either way. The kernel narrows features and mask to bf16 before its matrix product, which is exact on the
  extended reals.

  The frames: the kernel's program runs sixteen grid points, each staging a slab of 256 rows; its two feature
  arrays are each read through two input windows, so the arrays' shares are dealt by halves at the launch
  (`Hand.hsplit`, `Pipeline.SharedFrame.θ_run_frame_track_shared`); the reference's frame is its run.
-/
import proofs.«172328_g7610682049159_cont_9to1_m_1368_17_alg».proof.Defs
import proofs.«172328_g7610682049159_cont_9to1_m_1368_17_alg».proof.Proof.Gen.Kernel
import proofs.«172328_g7610682049159_cont_9to1_m_1368_17_alg».proof.Proof.Gen.KernelIdeal
import proofs.«172328_g7610682049159_cont_9to1_m_1368_17_alg».proof.Proof.Gen.ReferenceIdeal
import proofs.«172328_g7610682049159_cont_9to1_m_1368_17_alg».proof.Proof.Gen.Pre_finite_inputs
import proofs.«172328_g7610682049159_cont_9to1_m_1368_17_alg».proof.Proof.KFrame
import proofs.«172328_g7610682049159_cont_9to1_m_1368_17_alg».proof.Proof.KIFrame
import proofs.«172328_g7610682049159_cont_9to1_m_1368_17_alg».proof.Proof.KIValue
import proofs.«172328_g7610682049159_cont_9to1_m_1368_17_alg».proof.Proof.RefValue
import proofs.«172328_g7610682049159_cont_9to1_m_1368_17_alg».proof.Proof.FiniteInputs
import proofs.«172328_g7610682049159_cont_9to1_m_1368_17_alg».proof.Proof.Spec
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The two idealized programs end with equal results: entry by entry the kernel's arrangement of the formula
    against the reference's, joined by the law for finite features and weights. -/
theorem algebraic : Cert.algebraic_KernelIdeal_ReferenceIdeal := by
  intro m ρ m' ρ' hpre hagree
  refine ⟨fun c => (Cert.KernelIdeal.Hand.dats m 0 c).arrAt 10 Cert.KernelIdeal.cfg0.N,
    fun c => (Cert.KernelIdeal.Hand.dats m 0 c).arrAt 11 Cert.KernelIdeal.cfg0.N,
    Cert.KernelIdeal.Hand.run_outputs m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  all_goals
    obtain ⟨e0, e1, e2, e3, e4, e5, e6, e7⟩ := hagree c
    obtain ⟨f0, f1, f4, f6⟩ := Cert.FiniteInputs.real_of_pre _ _ _ _ _ _ _ _ (hpre c)
  · rw [Cert.ReferenceIdeal.ReadP.val_main_v20_eq, e0, e1, e2, e4, e5]
    refine funext fun i => ?_
    obtain ⟨r, j, rfl⟩ : ∃ (r : Fin 4096) (j : Fin 128), i = ix2 r j := ⟨i 0, i 1, eq_ix2 i⟩
    rw [Cert.ReferenceIdeal.RefValue.v20_entry]
    exact ((Cert.Spec.kerOut_eq_refOut _ _ _ _ _ (fun k d => f1 (ix2 k d)) (fun j d => f4 (ix2 j d)) r j).symm).trans
      (Cert.KernelIdeal.Hand.out10_spec m c r j).symm
  · rw [Cert.ReferenceIdeal.ReadP.val_main_v41_eq, e0, e1, e3, e6, e7]
    refine funext fun i => ?_
    obtain ⟨r, j, rfl⟩ : ∃ (r : Fin 4096) (j : Fin 128), i = ix2 r j := ⟨i 0, i 1, eq_ix2 i⟩
    rw [Cert.ReferenceIdeal.RefValue.v41_entry]
    exact ((Cert.Spec.kerOut_eq_refOut _ _ _ _ _ (fun k d => f0 (ix2 k d)) (fun j d => f6 (ix2 j d)) r j).symm).trans
      (Cert.KernelIdeal.Hand.out11_spec m c r j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
